-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x64 : Shape := ⟨3, ![32, 1024, 64]⟩
abbrev S32x8192x64 : Shape := ⟨3, ![32, 8192, 64]⟩
abbrev S_ : Shape := ⟨0, ![]⟩

class Facts : Prop where
  bcast_S_S32x1024x64 : S_.BroadcastsInDim S32x1024x64 (![] : Fin 0 → Fin S32x1024x64.rank)
  reducesTo_S32x1024x64_S_d0_1_2 : S32x1024x64.ReducesTo [0, 1, 2] S_
  h_S_ : 0 < S_.numel
  bcast_S_S32x8192x64 : S_.BroadcastsInDim S32x8192x64 (![] : Fin 0 → Fin S32x8192x64.rank)
  reducesTo_S32x8192x64_S_d0_1_2 : S32x8192x64.ReducesTo [0, 1, 2] S_

variable [Facts]

def fn {F : FTy → Type} [FloatOps F] (main_arg0 : FVec F S32x1024x64 .f32) (main_arg1 : FVec F S32x8192x64 .f32) (main_arg2 : FVec F S32x8192x64 .f32) : IVec S_ 1 :=
  let main_v0 : FVec F S32x1024x64 .f32 := Host.absf main_arg0
  let main_cst : FVec F S_ .f32 := constant S_ .f32 0x7F800000#32
  let main_v1 : FVec F S32x1024x64 .f32 := broadcastInDim S32x1024x64 ![] bcast_S_S32x1024x64 main_cst
  let main_v2 : IVec S32x1024x64 1 := cmpf .olt main_v0 main_v1
  let main_c : IVec S_ 1 := constantI S_ 1 1#1
  let main_v3 : IVec S_ 1 := (fun x v => Host.reduce IntOp.andi x v reducesTo_S32x1024x64_S_d0_1_2 h_S_) main_v2 main_c
  let main_v4 : FVec F S32x8192x64 .f32 := Host.absf main_arg1
  let main_cst_0 : FVec F S_ .f32 := constant S_ .f32 0x7F800000#32
  let main_v5 : FVec F S32x8192x64 .f32 := broadcastInDim S32x8192x64 ![] bcast_S_S32x8192x64 main_cst_0
  let main_v6 : IVec S32x8192x64 1 := cmpf .olt main_v4 main_v5
  let main_c_1 : IVec S_ 1 := constantI S_ 1 1#1
  let main_v7 : IVec S_ 1 := (fun x v => Host.reduce IntOp.andi x v reducesTo_S32x8192x64_S_d0_1_2 h_S_) main_v6 main_c_1
  let main_v8 : IVec S_ 1 := andi main_v3 main_v7
  let main_v9 : FVec F S32x8192x64 .f32 := Host.absf main_arg2
  let main_cst_2 : FVec F S_ .f32 := constant S_ .f32 0x7F800000#32
  let main_v10 : FVec F S32x8192x64 .f32 := broadcastInDim S32x8192x64 ![] bcast_S_S32x8192x64 main_cst_2
  let main_v11 : IVec S32x8192x64 1 := cmpf .olt main_v9 main_v10
  let main_c_3 : IVec S_ 1 := constantI S_ 1 1#1
  let main_v12 : IVec S_ 1 := (fun x v => Host.reduce IntOp.andi x v reducesTo_S32x8192x64_S_d0_1_2 h_S_) main_v11 main_c_3
  let main_v13 : IVec S_ 1 := andi main_v8 main_v12
  main_v13
-- ==== Kernel.lean ====
abbrev S32x1024x64 : Shape := ⟨3, ![32, 1024, 64]⟩
abbrev S32x8192x64 : Shape := ⟨3, ![32, 8192, 64]⟩
abbrev S1x1024x64 : Shape := ⟨3, ![1, 1024, 64]⟩
abbrev S1x2048x64 : Shape := ⟨3, ![1, 2048, 64]⟩
abbrev S1024x1 : Shape := ⟨2, ![1024, 1]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩

abbrev nBuf : Space → Nat
  | .hbm => 4
  | .vmem => 12
  | .smem => 0
  | _ => 0

abbrev bufTy : (tb : Table) → Fin (tcTables nBuf tb) → BufTy
  | .hbm, ⟨0, _⟩ => ⟨S32x1024x64, .f32⟩
  | .hbm, ⟨1, _⟩ => ⟨S32x8192x64, .f32⟩
  | .hbm, ⟨2, _⟩ => ⟨S32x8192x64, .f32⟩
  | .hbm, ⟨3, _⟩ => ⟨S32x1024x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | .local _ .vmem, ⟨8, _⟩ => ⟨S1024x1, .f32⟩
  | .local _ .vmem, ⟨9, _⟩ => ⟨S1024x1, .f32⟩
  | .local _ .vmem, ⟨10, _⟩ => ⟨S1024x64, .f32⟩
  | .local _ .vmem, ⟨11, _⟩ => ⟨S1024x64, .bf16⟩
  | _, _ => ⟨S32x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_23 : BitVec 32 := 0#32
  let v42 : BitVec 1 := Scalar.cmpi .ne v41 c0_i32_23
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  packedbf16_S1024x64_S1024x64_0_0 : (Rect.unit (s := S1024x64) ![0, 0] S1024x64.size inb_S1024x64_S1024x64_0_0).PackedRows (EltTy.packing .bf16)
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x1024x64.size a
  hwx0_0 : ∀ i : grid0.Coords, EltTy.bits .f32 = 32 ∨ (Rect.block (s := S32x1024x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x8192x64.size a
  hwx0_1 : ∀ i : grid0.Coords, EltTy.bits .f32 = 32 ∨ (Rect.block (s := S32x8192x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x8192x64.size a
  hwx0_2 : ∀ i : grid0.Coords, EltTy.bits .f32 = 32 ∨ (Rect.block (s := S32x8192x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x1024x64.size a
  hwx0_3 : ∀ i : grid0.Coords, EltTy.bits .f32 = 32 ∨ (Rect.block (s := S32x1024x64) S1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x1024x64 : Shape := ⟨3, ![32, 1024, 64]⟩
abbrev S32x8192x64 : Shape := ⟨3, ![32, 8192, 64]⟩
abbrev S32x1024x8192 : Shape := ⟨3, ![32, 1024, 8192]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 19
  | .vmem => 0
  | .smem => 0
  | _ => 0

abbrev bufTy : (tb : Table) → Fin (tcTables nBuf tb) → BufTy
  | .hbm, ⟨0, _⟩ => ⟨S32x1024x64, .f32⟩
  | .hbm, ⟨1, _⟩ => ⟨S32x8192x64, .f32⟩
  | .hbm, ⟨2, _⟩ => ⟨S32x8192x64, .f32⟩
  | .hbm, ⟨3, _⟩ => ⟨S32x1024x8192, .f32⟩
  | .hbm, ⟨4, _⟩ => ⟨S_, .f32⟩
  | .hbm, ⟨5, _⟩ => ⟨S32x1024, .f32⟩
  | .hbm, ⟨6, _⟩ => ⟨S_, .f32⟩
  | .hbm, ⟨7, _⟩ => ⟨S32x1024, .f32⟩
  | .hbm, ⟨8, _⟩ => ⟨S32x1024, .f32⟩
  | .hbm, ⟨9, _⟩ => ⟨S32x1024x1, .f32⟩
  | .hbm, ⟨10, _⟩ => ⟨S32x1024x8192, .f32⟩
  | .hbm, ⟨11, _⟩ => ⟨S32x1024x8192, .f32⟩
  | .hbm, ⟨12, _⟩ => ⟨S32x1024x8192, .f32⟩
  | .hbm, ⟨13, _⟩ => ⟨S_, .f32⟩
  | .hbm, ⟨14, _⟩ => ⟨S32x1024, .f32⟩
  | .hbm, ⟨15, _⟩ => ⟨S32x1024x1, .f32⟩
  | .hbm, ⟨16, _⟩ => ⟨S32x1024x8192, .f32⟩
  | .hbm, ⟨17, _⟩ => ⟨S32x1024x8192, .f32⟩
  | .hbm, ⟨18, _⟩ => ⟨S32x1024x64, .f32⟩
  | _, _ => ⟨S32x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S32x1024x8192_S32x1024_d2 : S32x1024x8192.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x8192_0_1_2 : S32x1024x1.BroadcastsInDim S32x1024x8192 (![0, 1, 2] : Fin 3 → Fin S32x1024x8192.rank)
  dot_S32x1024x64_S32x8192x64_S32x1024x8192_2_2_1_1_0_0_wf : DotDims.WF S32x1024x64 S32x8192x64 S32x1024x8192 [2] [2] [1] [1] [0] [0]
  dot_S32x1024x8192_S32x8192x64_S32x1024x64_2_1_1_2_0_0_wf : DotDims.WF S32x1024x8192 S32x8192x64 S32x1024x64 [2] [1] [1] [2] [0] [0]

variable [Facts₀]

def dot_S32x1024x64_S32x8192x64_S32x1024x8192_2_2_1_1_0_0 : DotDims S32x1024x64 S32x8192x64 S32x1024x8192 where
  lhsContracting := [2]
  rhsContracting := [2]
  lhsNonContracting := [1]
  rhsNonContracting := [1]
  lhsBatch := [0]
  rhsBatch := [0]
  wf := dot_S32x1024x64_S32x8192x64_S32x1024x8192_2_2_1_1_0_0_wf
def dot_S32x1024x8192_S32x8192x64_S32x1024x64_2_1_1_2_0_0 : DotDims S32x1024x8192 S32x8192x64 S32x1024x64 where
  lhsContracting := [2]
  rhsContracting := [1]
  lhsNonContracting := [1]
  rhsNonContracting := [2]
  lhsBatch := [0]
  rhsBatch := [0]
  wf := dot_S32x1024x8192_S32x8192x64_S32x1024x64_2_1_1_2_0_0_wf

class Facts : Prop extends Facts₀ where

variable [Facts]
-- ==== Proof.Pieces.lean ====
import proofs.«407558_j37718402793788_3_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

/-! What each control case of the body leaves behind, as the body's named pure terms of what the case found on entry.
    The first tile of a batch row (case A) resets the four carried buffers — running maximum to -∞, running sum and
    accumulator to 0, the cached query tile to the query block — and then updates them; a later tile (cases B and C)
    updates what the tile before left; the last tile (case C) also stores accumulator / sum into the output block. -/

theorem hz2 : (![0, 0] : Fin 2 → Nat) = fun _ => 0 := funext fun a => by fin_cases a <;> rfl
theorem hz3 : (![0, 0, 0] : Fin 3 → Nat) = fun _ => 0 := funext fun a => by fin_cases a <;> rfl

/-- First tile: the running maximum it leaves — the update over the reset value -∞, from the query block cached by this very tile. -/
theorem sA_m (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (arg9 : Memref sig .tc .vmem S1024x64 .bf16) (harg9 : arg9.IsWhole) (hc0 : cond0_0 i) (hc1 : ¬cond0_1 i)
    (x0 : Vec F S1x1024x64 .f32) (x1 : Vec F S1x2048x64 .f32) (x2 : Vec F S1x2048x64 .f32) :
    sout0_A_0 c i arg2 harg2 arg3 harg3 arg4 harg4 arg5 harg5 arg6 harg6 arg7 harg7 arg8 harg8 arg9 harg9 hc0 hc1 x0 x1 x2 = k0_pay2 (k0_pay9 (k0_pay7 x0) x1 k0_pay4) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1024x1) hz2]
  simp only [View.readAt_eq_ld, harg2.read_unread, harg3.read_unread, harg4.read_unread, harg6.read_unread, harg7.read_unread,
    harg8.read_unread, harg9.read_unread, View.ld_unit_zero (S := S1x1024x64) hz3, View.ld_unit_zero (S := S1x2048x64) hz3,
    View.ld_unit_zero (S := S1024x64) hz2, View.ld_unit_zero (S := S1024x1) hz2,
    View.readCov_unit_zero (S := S1024x64) _ hz2, View.readCov_unit_zero (S := S1024x1) _ hz2]

/-- First tile: the running sum it leaves, over the reset value 0. -/
theorem sA_l (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (arg9 : Memref sig .tc .vmem S1024x64 .bf16) (harg9 : arg9.IsWhole) (hc0 : cond0_0 i) (hc1 : ¬cond0_1 i)
    (x0 : Vec F S1x1024x64 .f32) (x1 : Vec F S1x2048x64 .f32) (x2 : Vec F S1x2048x64 .f32) :
    sout0_A_1 c i arg2 harg2 arg3 harg3 arg4 harg4 arg5 harg5 arg6 harg6 arg7 harg7 arg8 harg8 arg9 harg9 hc0 hc1 x0 x1 x2 = k0_pay12 (k0_pay7 x0) x1 k0_pay4 k0_pay5 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1024x1) hz2]
  simp only [View.readAt_eq_ld, harg2.read_unread, harg3.read_unread, harg4.read_unread, harg6.read_unread, harg7.read_unread,
    harg8.read_unread, harg9.read_unread, View.ld_unit_zero (S := S1x1024x64) hz3, View.ld_unit_zero (S := S1x2048x64) hz3,
    View.ld_unit_zero (S := S1024x64) hz2, View.ld_unit_zero (S := S1024x1) hz2,
    View.readCov_unit_zero (S := S1024x64) _ hz2, View.readCov_unit_zero (S := S1024x1) _ hz2]

/-- First tile: the accumulator it leaves, over the reset value 0. -/
theorem sA_acc (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (arg9 : Memref sig .tc .vmem S1024x64 .bf16) (harg9 : arg9.IsWhole) (hc0 : cond0_0 i) (hc1 : ¬cond0_1 i)
    (x0 : Vec F S1x1024x64 .f32) (x1 : Vec F S1x2048x64 .f32) (x2 : Vec F S1x2048x64 .f32) :
    sout0_A_2 c i arg2 harg2 arg3 harg3 arg4 harg4 arg5 harg5 arg6 harg6 arg7 harg7 arg8 harg8 arg9 harg9 hc0 hc1 x0 x1 x2 = k0_pay1 (k0_pay13 (k0_pay7 x0) x1 x2 k0_pay4 k0_pay6) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1024x64) hz2]
  simp only [View.readAt_eq_ld, harg2.read_unread, harg3.read_unread, harg4.read_unread, harg6.read_unread, harg7.read_unread,
    harg8.read_unread, harg9.read_unread, View.ld_unit_zero (S := S1x1024x64) hz3, View.ld_unit_zero (S := S1x2048x64) hz3,
    View.ld_unit_zero (S := S1024x64) hz2, View.ld_unit_zero (S := S1024x1) hz2,
    View.readCov_unit_zero (S := S1024x64) _ hz2, View.readCov_unit_zero (S := S1024x1) _ hz2]

/-- First tile: the cached query tile is the query block, narrowed. -/
theorem sA_q (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (arg9 : Memref sig .tc .vmem S1024x64 .bf16) (harg9 : arg9.IsWhole) (hc0 : cond0_0 i) (hc1 : ¬cond0_1 i)
    (x0 : Vec F S1x1024x64 .f32) (x1 : Vec F S1x2048x64 .f32) (x2 : Vec F S1x2048x64 .f32) :
    sout0_A_3 c i arg2 harg2 arg3 harg3 arg4 harg4 arg5 harg5 arg6 harg6 arg7 harg7 arg8 harg8 arg9 harg9 hc0 hc1 x0 x1 x2 = k0_pay7 x0 := by
  unfold sout0_A_3
  rw [View.read_writes_eq_canon _ _ _ (scover0_A_3 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_unit_zero (S := S1024x64) hz2]
  simp only [View.readAt_eq_ld, harg2.read_unread, harg3.read_unread, harg4.read_unread, harg6.read_unread, harg7.read_unread,
    harg8.read_unread, harg9.read_unread, View.ld_unit_zero (S := S1x1024x64) hz3, View.ld_unit_zero (S := S1x2048x64) hz3,
    View.ld_unit_zero (S := S1024x64) hz2, View.ld_unit_zero (S := S1024x1) hz2,
    View.readCov_unit_zero (S := S1024x64) _ hz2, View.readCov_unit_zero (S := S1024x1) _ hz2]

/-- A middle tile: the running maximum, over what the tile before left. -/
theorem sB_m (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (arg9 : Memref sig .tc .vmem S1024x64 .bf16) (harg9 : arg9.IsWhole) (hc0 : ¬cond0_0 i) (hc1 : ¬cond0_1 i)
    (x0 : Vec F S1x1024x64 .f32) (x1 : Vec F S1x2048x64 .f32) (x2 : Vec F S1x2048x64 .f32) (xs0 : Vec F S1024x1 .f32) (xs1 : Vec F S1024x1 .f32) (xs2 : Vec F S1024x64 .f32) (xs3 : Vec F S1024x64 .bf16) :
    sout0_B_0 c i arg2 harg2 arg3 harg3 arg4 harg4 arg5 harg5 arg6 harg6 arg7 harg7 arg8 harg8 arg9 harg9 hc0 hc1 x0 x1 x2 xs0 xs1 xs2 xs3 = k0_pay2 (k0_pay9 xs3 x1 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_unit_zero (S := S1024x1) hz2]
  simp only [View.readAt_eq_ld, harg2.read_unread, harg3.read_unread, harg4.read_unread, harg6.read_unread, harg7.read_unread,
    harg8.read_unread, harg9.read_unread, View.ld_unit_zero (S := S1x1024x64) hz3, View.ld_unit_zero (S := S1x2048x64) hz3,
    View.ld_unit_zero (S := S1024x64) hz2, View.ld_unit_zero (S := S1024x1) hz2,
    View.readCov_unit_zero (S := S1024x64) _ hz2, View.readCov_unit_zero (S := S1024x1) _ hz2]

/-- A middle tile: the running sum. -/
theorem sB_l (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (arg9 : Memref sig .tc .vmem S1024x64 .bf16) (harg9 : arg9.IsWhole) (hc0 : ¬cond0_0 i) (hc1 : ¬cond0_1 i)
    (x0 : Vec F S1x1024x64 .f32) (x1 : Vec F S1x2048x64 .f32) (x2 : Vec F S1x2048x64 .f32) (xs0 : Vec F S1024x1 .f32) (xs1 : Vec F S1024x1 .f32) (xs2 : Vec F S1024x64 .f32) (xs3 : Vec F S1024x64 .bf16) :
    sout0_B_1 c i arg2 harg2 arg3 harg3 arg4 harg4 arg5 harg5 arg6 harg6 arg7 harg7 arg8 harg8 arg9 harg9 hc0 hc1 x0 x1 x2 xs0 xs1 xs2 xs3 = k0_pay12 xs3 x1 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_unit_zero (S := S1024x1) hz2]
  simp only [View.readAt_eq_ld, harg2.read_unread, harg3.read_unread, harg4.read_unread, harg6.read_unread, harg7.read_unread,
    harg8.read_unread, harg9.read_unread, View.ld_unit_zero (S := S1x1024x64) hz3, View.ld_unit_zero (S := S1x2048x64) hz3,
    View.ld_unit_zero (S := S1024x64) hz2, View.ld_unit_zero (S := S1024x1) hz2,
    View.readCov_unit_zero (S := S1024x64) _ hz2, View.readCov_unit_zero (S := S1024x1) _ hz2]

/-- A middle tile: the accumulator. -/
theorem sB_acc (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (arg9 : Memref sig .tc .vmem S1024x64 .bf16) (harg9 : arg9.IsWhole) (hc0 : ¬cond0_0 i) (hc1 : ¬cond0_1 i)
    (x0 : Vec F S1x1024x64 .f32) (x1 : Vec F S1x2048x64 .f32) (x2 : Vec F S1x2048x64 .f32) (xs0 : Vec F S1024x1 .f32) (xs1 : Vec F S1024x1 .f32) (xs2 : Vec F S1024x64 .f32) (xs3 : Vec F S1024x64 .bf16) :
    sout0_B_2 c i arg2 harg2 arg3 harg3 arg4 harg4 arg5 harg5 arg6 harg6 arg7 harg7 arg8 harg8 arg9 harg9 hc0 hc1 x0 x1 x2 xs0 xs1 xs2 xs3 = k0_pay1 (k0_pay13 xs3 x1 x2 xs0 xs2) := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_unit_zero (S := S1024x64) hz2]
  simp only [View.readAt_eq_ld, harg2.read_unread, harg3.read_unread, harg4.read_unread, harg6.read_unread, harg7.read_unread,
    harg8.read_unread, harg9.read_unread, View.ld_unit_zero (S := S1x1024x64) hz3, View.ld_unit_zero (S := S1x2048x64) hz3,
    View.ld_unit_zero (S := S1024x64) hz2, View.ld_unit_zero (S := S1024x1) hz2,
    View.readCov_unit_zero (S := S1024x64) _ hz2, View.readCov_unit_zero (S := S1024x1) _ hz2]

/-- The last tile: the running maximum. -/
theorem sC_m (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (arg9 : Memref sig .tc .vmem S1024x64 .bf16) (harg9 : arg9.IsWhole) (hc0 : ¬cond0_0 i) (hc1 : cond0_1 i)
    (x0 : Vec F S1x1024x64 .f32) (x1 : Vec F S1x2048x64 .f32) (x2 : Vec F S1x2048x64 .f32) (xs0 : Vec F S1024x1 .f32) (xs1 : Vec F S1024x1 .f32) (xs2 : Vec F S1024x64 .f32) (xs3 : Vec F S1024x64 .bf16) :
    sout0_C_0 c i arg2 harg2 arg3 harg3 arg4 harg4 arg5 harg5 arg6 harg6 arg7 harg7 arg8 harg8 arg9 harg9 hc0 hc1 x0 x1 x2 xs0 xs1 xs2 xs3 = k0_pay2 (k0_pay9 xs3 x1 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_unit_zero (S := S1024x1) hz2]
  simp only [View.readAt_eq_ld, harg2.read_unread, harg3.read_unread, harg4.read_unread, harg6.read_unread, harg7.read_unread,
    harg8.read_unread, harg9.read_unread, View.ld_unit_zero (S := S1x1024x64) hz3, View.ld_unit_zero (S := S1x2048x64) hz3,
    View.ld_unit_zero (S := S1024x64) hz2, View.ld_unit_zero (S := S1024x1) hz2,
    View.readCov_unit_zero (S := S1024x64) _ hz2, View.readCov_unit_zero (S := S1024x1) _ hz2]

/-- The last tile: the running sum. -/
theorem sC_l (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (arg9 : Memref sig .tc .vmem S1024x64 .bf16) (harg9 : arg9.IsWhole) (hc0 : ¬cond0_0 i) (hc1 : cond0_1 i)
    (x0 : Vec F S1x1024x64 .f32) (x1 : Vec F S1x2048x64 .f32) (x2 : Vec F S1x2048x64 .f32) (xs0 : Vec F S1024x1 .f32) (xs1 : Vec F S1024x1 .f32) (xs2 : Vec F S1024x64 .f32) (xs3 : Vec F S1024x64 .bf16) :
    sout0_C_1 c i arg2 harg2 arg3 harg3 arg4 harg4 arg5 harg5 arg6 harg6 arg7 harg7 arg8 harg8 arg9 harg9 hc0 hc1 x0 x1 x2 xs0 xs1 xs2 xs3 = k0_pay12 xs3 x1 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_unit_zero (S := S1024x1) hz2]
  simp only [View.readAt_eq_ld, harg2.read_unread, harg3.read_unread, harg4.read_unread, harg6.read_unread, harg7.read_unread,
    harg8.read_unread, harg9.read_unread, View.ld_unit_zero (S := S1x1024x64) hz3, View.ld_unit_zero (S := S1x2048x64) hz3,
    View.ld_unit_zero (S := S1024x64) hz2, View.ld_unit_zero (S := S1024x1) hz2,
    View.readCov_unit_zero (S := S1024x64) _ hz2, View.readCov_unit_zero (S := S1024x1) _ hz2]

/-- The last tile: the accumulator. -/
theorem sC_acc (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (arg9 : Memref sig .tc .vmem S1024x64 .bf16) (harg9 : arg9.IsWhole) (hc0 : ¬cond0_0 i) (hc1 : cond0_1 i)
    (x0 : Vec F S1x1024x64 .f32) (x1 : Vec F S1x2048x64 .f32) (x2 : Vec F S1x2048x64 .f32) (xs0 : Vec F S1024x1 .f32) (xs1 : Vec F S1024x1 .f32) (xs2 : Vec F S1024x64 .f32) (xs3 : Vec F S1024x64 .bf16) :
    sout0_C_2 c i arg2 harg2 arg3 harg3 arg4 harg4 arg5 harg5 arg6 harg6 arg7 harg7 arg8 harg8 arg9 harg9 hc0 hc1 x0 x1 x2 xs0 xs1 xs2 xs3 = k0_pay1 (k0_pay13 xs3 x1 x2 xs0 xs2) := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_unit_zero (S := S1024x64) hz2]
  simp only [View.readAt_eq_ld, harg2.read_unread, harg3.read_unread, harg4.read_unread, harg6.read_unread, harg7.read_unread,
    harg8.read_unread, harg9.read_unread, View.ld_unit_zero (S := S1x1024x64) hz3, View.ld_unit_zero (S := S1x2048x64) hz3,
    View.ld_unit_zero (S := S1024x64) hz2, View.ld_unit_zero (S := S1024x1) hz2,
    View.readCov_unit_zero (S := S1024x64) _ hz2, View.readCov_unit_zero (S := S1024x1) _ hz2]

/-- The last tile: the output block is the accumulator it has just left, divided row by row by the running sum it has just left. -/
theorem oC (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (arg9 : Memref sig .tc .vmem S1024x64 .bf16) (harg9 : arg9.IsWhole) (hc0 : ¬cond0_0 i) (hc1 : cond0_1 i)
    (x0 : Vec F S1x1024x64 .f32) (x1 : Vec F S1x2048x64 .f32) (x2 : Vec F S1x2048x64 .f32) (xs0 : Vec F S1024x1 .f32) (xs1 : Vec F S1024x1 .f32) (xs2 : Vec F S1024x64 .f32) (xs3 : Vec F S1024x64 .bf16) :
    out0_C_3 c i arg2 harg2 arg3 harg3 arg4 harg4 arg5 harg5 arg6 harg6 arg7 harg7 arg8 harg8 arg9 harg9 hc0 hc1 x0 x1 x2 xs0 xs1 xs2 xs3 = k0_pay3 (k0_pay1 (k0_pay13 xs3 x1 x2 xs0 xs2)) (k0_pay12 xs3 x1 xs0 xs1) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_unit_zero (S := S1x1024x64) hz3]
  simp only [View.readAt_eq_ld, harg2.read_unread, harg3.read_unread, harg4.read_unread, harg6.read_unread, harg7.read_unread,
    harg8.read_unread, harg9.read_unread, View.ld_unit_zero (S := S1x1024x64) hz3, View.ld_unit_zero (S := S1x2048x64) hz3,
    View.ld_unit_zero (S := S1024x64) hz2, View.ld_unit_zero (S := S1024x1) hz2,
    View.readCov_unit_zero (S := S1024x64) _ hz2, View.readCov_unit_zero (S := S1024x1) _ hz2]

end Cert.KernelIdeal.Pieces

end
-- ==== Proof.PointState.lean ====
import proofs.«407558_j37718402793788_3_alg».proof.Proof.Pieces

set_option maxRecDepth 16384

noncomputable section

/-! The five things a grid point leaves behind — the output block's staging contents, the running maximum, the running
    sum, the accumulator, the cached query tile — each as the body's pure term of the point's three input blocks and,
    after the first tile of a batch row, of what the point before left. Points are numbered row-major: point `t` is
    tile `t % 4` of batch row `t / 4`; the first tile resets (case A), the last also writes the output (case C). -/

namespace Cert.KernelIdeal.PointState

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The query, key and value blocks the pipeline stages at point `t`. -/
abbrev qblk (c : Dev nD) (t : Fin cfg0.N) : Vec F S1x1024x64 .f32 := iblk m c 0 t
abbrev kblk (c : Dev nD) (t : Fin cfg0.N) : Vec F S1x2048x64 .f32 := iblk m c 1 t
abbrev vblk (c : Dev nD) (t : Fin cfg0.N) : Vec F S1x2048x64 .f32 := iblk m c 2 t

/-- After point `n`: the output block's staging contents, the running maximum, the running sum, the accumulator and
    the cached query tile. -/
abbrev oS (c : Dev nD) (n : ℕ) (h : n < cfg0.N) : Vec F S1x1024x64 .f32 := (outsAt0 m c n h).1
abbrev mS (c : Dev nD) (n : ℕ) (h : n < cfg0.N) : Vec F S1024x1 .f32 := (outsAt0 m c n h).2.1
abbrev lS (c : Dev nD) (n : ℕ) (h : n < cfg0.N) : Vec F S1024x1 .f32 := (outsAt0 m c n h).2.2.1
abbrev aS (c : Dev nD) (n : ℕ) (h : n < cfg0.N) : Vec F S1024x64 .f32 := (outsAt0 m c n h).2.2.2.1
abbrev qS (c : Dev nD) (n : ℕ) (h : n < cfg0.N) : Vec F S1024x64 .bf16 := (outsAt0 m c n h).2.2.2.2

theorem prev_lt (t : Fin cfg0.N) : t.val - 1 < cfg0.N := Nat.lt_of_le_of_lt (Nat.sub_le _ _) t.isLt

/-- First tile: the running maximum. -/
theorem mS_A (c : Dev nD) (t : Fin cfg0.N) (h0 : t.val % 4 = 0) (h1 : ¬t.val % 4 = 3) :
    mS m c t.val t.isLt = k0_pay2 (k0_pay9 (k0_pay7 (qblk m c t)) (kblk m c t) k0_pay4) := by
  show (outsAt0 m c t.val t.isLt).2.1 = _
  rw [outsAt0_A m c t h0 h1]
  dsimp only
  exact Pieces.sA_m c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

/-- First tile: the running sum. -/
theorem lS_A (c : Dev nD) (t : Fin cfg0.N) (h0 : t.val % 4 = 0) (h1 : ¬t.val % 4 = 3) :
    lS m c t.val t.isLt = k0_pay12 (k0_pay7 (qblk m c t)) (kblk m c t) k0_pay4 k0_pay5 := by
  show (outsAt0 m c t.val t.isLt).2.2.1 = _
  rw [outsAt0_A m c t h0 h1]
  dsimp only
  exact Pieces.sA_l c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

/-- First tile: the accumulator. -/
theorem aS_A (c : Dev nD) (t : Fin cfg0.N) (h0 : t.val % 4 = 0) (h1 : ¬t.val % 4 = 3) :
    aS m c t.val t.isLt = k0_pay1 (k0_pay13 (k0_pay7 (qblk m c t)) (kblk m c t) (vblk m c t) k0_pay4 k0_pay6) := by
  show (outsAt0 m c t.val t.isLt).2.2.2.1 = _
  rw [outsAt0_A m c t h0 h1]
  dsimp only
  exact Pieces.sA_acc c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

/-- First tile: the cached query tile. -/
theorem qS_A (c : Dev nD) (t : Fin cfg0.N) (h0 : t.val % 4 = 0) (h1 : ¬t.val % 4 = 3) :
    qS m c t.val t.isLt = k0_pay7 (qblk m c t) := by
  show (outsAt0 m c t.val t.isLt).2.2.2.2 = _
  rw [outsAt0_A m c t h0 h1]
  dsimp only
  exact Pieces.sA_q c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

/-- A middle tile: the running maximum. -/
theorem mS_B (c : Dev nD) (t : Fin cfg0.N) (h0 : ¬t.val % 4 = 0) (h1 : ¬t.val % 4 = 3) :
    mS m c t.val t.isLt = k0_pay2 (k0_pay9 (qS m c (t.val - 1) (prev_lt t)) (kblk m c t) (mS m c (t.val - 1) (prev_lt t))) := by
  show (outsAt0 m c t.val t.isLt).2.1 = _
  rw [outsAt0_B m c t h0 h1]
  dsimp only
  exact Pieces.sB_m c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (prev_lt t)).2.1 (outsAt0 m c (t.val - 1) (prev_lt t)).2.2.1 (outsAt0 m c (t.val - 1) (prev_lt t)).2.2.2.1 (outsAt0 m c (t.val - 1) (prev_lt t)).2.2.2.2

/-- A middle tile: the running sum. -/
theorem lS_B (c : Dev nD) (t : Fin cfg0.N) (h0 : ¬t.val % 4 = 0) (h1 : ¬t.val % 4 = 3) :
    lS m c t.val t.isLt = k0_pay12 (qS m c (t.val - 1) (prev_lt t)) (kblk m c t) (mS m c (t.val - 1) (prev_lt t)) (lS m c (t.val - 1) (prev_lt t)) := by
  show (outsAt0 m c t.val t.isLt).2.2.1 = _
  rw [outsAt0_B m c t h0 h1]
  dsimp only
  exact Pieces.sB_l c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (prev_lt t)).2.1 (outsAt0 m c (t.val - 1) (prev_lt t)).2.2.1 (outsAt0 m c (t.val - 1) (prev_lt t)).2.2.2.1 (outsAt0 m c (t.val - 1) (prev_lt t)).2.2.2.2

/-- A middle tile: the accumulator. -/
theorem aS_B (c : Dev nD) (t : Fin cfg0.N) (h0 : ¬t.val % 4 = 0) (h1 : ¬t.val % 4 = 3) :
    aS m c t.val t.isLt = k0_pay1 (k0_pay13 (qS m c (t.val - 1) (prev_lt t)) (kblk m c t) (vblk m c t) (mS m c (t.val - 1) (prev_lt t)) (aS m c (t.val - 1) (prev_lt t))) := by
  show (outsAt0 m c t.val t.isLt).2.2.2.1 = _
  rw [outsAt0_B m c t h0 h1]
  dsimp only
  exact Pieces.sB_acc c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (prev_lt t)).2.1 (outsAt0 m c (t.val - 1) (prev_lt t)).2.2.1 (outsAt0 m c (t.val - 1) (prev_lt t)).2.2.2.1 (outsAt0 m c (t.val - 1) (prev_lt t)).2.2.2.2

/-- The last tile: the running maximum. -/
theorem mS_C (c : Dev nD) (t : Fin cfg0.N) (h0 : ¬t.val % 4 = 0) (h1 : t.val % 4 = 3) :
    mS m c t.val t.isLt = k0_pay2 (k0_pay9 (qS m c (t.val - 1) (prev_lt t)) (kblk m c t) (mS m c (t.val - 1) (prev_lt t))) := by
  show (outsAt0 m c t.val t.isLt).2.1 = _
  rw [outsAt0_C m c t h0 h1]
  dsimp only
  exact Pieces.sC_m c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (prev_lt t)).2.1 (outsAt0 m c (t.val - 1) (prev_lt t)).2.2.1 (outsAt0 m c (t.val - 1) (prev_lt t)).2.2.2.1 (outsAt0 m c (t.val - 1) (prev_lt t)).2.2.2.2

/-- The last tile: the running sum. -/
theorem lS_C (c : Dev nD) (t : Fin cfg0.N) (h0 : ¬t.val % 4 = 0) (h1 : t.val % 4 = 3) :
    lS m c t.val t.isLt = k0_pay12 (qS m c (t.val - 1) (prev_lt t)) (kblk m c t) (mS m c (t.val - 1) (prev_lt t)) (lS m c (t.val - 1) (prev_lt t)) := by
  show (outsAt0 m c t.val t.isLt).2.2.1 = _
  rw [outsAt0_C m c t h0 h1]
  dsimp only
  exact Pieces.sC_l c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (prev_lt t)).2.1 (outsAt0 m c (t.val - 1) (prev_lt t)).2.2.1 (outsAt0 m c (t.val - 1) (prev_lt t)).2.2.2.1 (outsAt0 m c (t.val - 1) (prev_lt t)).2.2.2.2

/-- The last tile: the accumulator. -/
theorem aS_C (c : Dev nD) (t : Fin cfg0.N) (h0 : ¬t.val % 4 = 0) (h1 : t.val % 4 = 3) :
    aS m c t.val t.isLt = k0_pay1 (k0_pay13 (qS m c (t.val - 1) (prev_lt t)) (kblk m c t) (vblk m c t) (mS m c (t.val - 1) (prev_lt t)) (aS m c (t.val - 1) (prev_lt t))) := by
  show (outsAt0 m c t.val t.isLt).2.2.2.1 = _
  rw [outsAt0_C m c t h0 h1]
  dsimp only
  exact Pieces.sC_acc c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (prev_lt t)).2.1 (outsAt0 m c (t.val - 1) (prev_lt t)).2.2.1 (outsAt0 m c (t.val - 1) (prev_lt t)).2.2.2.1 (outsAt0 m c (t.val - 1) (prev_lt t)).2.2.2.2

/-- The last tile: the output block, the new accumulator over the new running sum. -/
theorem oS_C (c : Dev nD) (t : Fin cfg0.N) (h0 : ¬t.val % 4 = 0) (h1 : t.val % 4 = 3) :
    oS m c t.val t.isLt = k0_pay3 (k0_pay1 (k0_pay13 (qS m c (t.val - 1) (prev_lt t)) (kblk m c t) (vblk m c t) (mS m c (t.val - 1) (prev_lt t)) (aS m c (t.val - 1) (prev_lt t)))) (k0_pay12 (qS m c (t.val - 1) (prev_lt t)) (kblk m c t) (mS m c (t.val - 1) (prev_lt t)) (lS m c (t.val - 1) (prev_lt t))) := by
  show (outsAt0 m c t.val t.isLt).1 = _
  rw [outsAt0_C m c t h0 h1]
  dsimp only
  exact Pieces.oC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (prev_lt t)).2.1 (outsAt0 m c (t.val - 1) (prev_lt t)).2.2.1 (outsAt0 m c (t.val - 1) (prev_lt t)).2.2.2.1 (outsAt0 m c (t.val - 1) (prev_lt t)).2.2.2.2

/-- A middle or last tile keeps the cached query tile. -/
theorem qS_B (c : Dev nD) (t : Fin cfg0.N) (h0 : ¬t.val % 4 = 0) (h1 : ¬t.val % 4 = 3) : qS m c t.val t.isLt = (qS m c (t.val - 1) (prev_lt t)) := by
  show (outsAt0 m c t.val t.isLt).2.2.2.2 = _
  rw [outsAt0_B m c t h0 h1]
  rfl

theorem qS_C (c : Dev nD) (t : Fin cfg0.N) (h0 : ¬t.val % 4 = 0) (h1 : t.val % 4 = 3) : qS m c t.val t.isLt = (qS m c (t.val - 1) (prev_lt t)) := by
  show (outsAt0 m c t.val t.isLt).2.2.2.2 = _
  rw [outsAt0_C m c t h0 h1]
  rfl

end Cert.KernelIdeal.PointState

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.PayloadAt.lean ====
import proofs.«407558_j37718402793788_3_alg».proof.Proof.Gen.KernelIdeal.Skeleton
import proofs.«407558_j37718402793788_3_alg».proof.Proof.LibColumns
import Idealize.ShloMosaic.Lib.ValueIdx
import Idealize.ShloMosaic.Lib.Pipeline.Value
import Idealize.ShloMosaic.Lib.ValueLayout
import Idealize.ShloMosaic.PureOps.Ideal.Laws

/-!
  The kernel body's named pure terms read at one entry, with every number an extended real and every
  operation exact. One tile step of the streaming softmax: the score tile s = q kᵀ, the running row
  maximum m' = max(m, maxₖ s), the rescaling factor α = exp(m − m'), the tile weights p = exp(s − m'),
  the running row sum l' = α·l + Σₖ p, the running numerator acc' = α·acc + p v; and, at the last tile,
  the quotient acc / l. The initial values are −∞ for the maximum and 0 for the sum and the numerator.
-/

noncomputable section

namespace Cert.KernelIdeal.PayloadAt

open Cert.KernelIdeal Cert.KernelIdeal.Gen Idealize.ShloMosaic Idealize.ShloMosaic.ValueIdx

/-! ## The two contractions' operand indices, one axis at a time -/

/-- Scores: the left operand's row is the output's row. -/
theorem lhs_qk_0 (j : S1024x2048.Idx) (c : dot_S1024x64_S2048x64_S1024x2048_1_1_0_0_n_n.contr.Idx) :
    (dot_S1024x64_S2048x64_S1024x2048_1_1_0_0_n_n.lhsIdx j c 0).val = (j 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
/-- Scores: the left operand's column is the contraction coordinate. -/
theorem lhs_qk_1 (j : S1024x2048.Idx) (c : dot_S1024x64_S2048x64_S1024x2048_1_1_0_0_n_n.contr.Idx) :
    (dot_S1024x64_S2048x64_S1024x2048_1_1_0_0_n_n.lhsIdx j c 1).val = (c ⟨0, by decide⟩).val :=
  dot_S1024x64_S2048x64_S1024x2048_1_1_0_0_n_n.lhsIdx_val_of_single rfl j c
/-- Scores: the right operand's row is the output's column. -/
theorem rhs_qk_0 (j : S1024x2048.Idx) (c : dot_S1024x64_S2048x64_S1024x2048_1_1_0_0_n_n.contr.Idx) :
    (dot_S1024x64_S2048x64_S1024x2048_1_1_0_0_n_n.rhsIdx j c 0).val = (j 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
/-- Scores: the right operand's column is the contraction coordinate. -/
theorem rhs_qk_1 (j : S1024x2048.Idx) (c : dot_S1024x64_S2048x64_S1024x2048_1_1_0_0_n_n.contr.Idx) :
    (dot_S1024x64_S2048x64_S1024x2048_1_1_0_0_n_n.rhsIdx j c 1).val = (c ⟨0, by decide⟩).val :=
  dot_S1024x64_S2048x64_S1024x2048_1_1_0_0_n_n.rhsIdx_val_of_single rfl j c

/-- Weighted values: the left operand's row is the output's row. -/
theorem lhs_pv_0 (j : S1024x64.Idx) (c : dot_S1024x2048_S2048x64_S1024x64_1_0_0_1_n_n.contr.Idx) :
    (dot_S1024x2048_S2048x64_S1024x64_1_0_0_1_n_n.lhsIdx j c 0).val = (j 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
/-- Weighted values: the left operand's column is the contraction coordinate. -/
theorem lhs_pv_1 (j : S1024x64.Idx) (c : dot_S1024x2048_S2048x64_S1024x64_1_0_0_1_n_n.contr.Idx) :
    (dot_S1024x2048_S2048x64_S1024x64_1_0_0_1_n_n.lhsIdx j c 1).val = (c ⟨0, by decide⟩).val :=
  dot_S1024x2048_S2048x64_S1024x64_1_0_0_1_n_n.lhsIdx_val_of_single rfl j c
/-- Weighted values: the right operand's row is the contraction coordinate. -/
theorem rhs_pv_0 (j : S1024x64.Idx) (c : dot_S1024x2048_S2048x64_S1024x64_1_0_0_1_n_n.contr.Idx) :
    (dot_S1024x2048_S2048x64_S1024x64_1_0_0_1_n_n.rhsIdx j c 0).val = (c ⟨0, by decide⟩).val :=
  dot_S1024x2048_S2048x64_S1024x64_1_0_0_1_n_n.rhsIdx_val_of_single rfl j c
/-- Weighted values: the right operand's column is the output's column. -/
theorem rhs_pv_1 (j : S1024x64.Idx) (c : dot_S1024x2048_S2048x64_S1024x64_1_0_0_1_n_n.contr.Idx) :
    (dot_S1024x2048_S2048x64_S1024x64_1_0_0_1_n_n.rhsIdx j c 1).val = (j 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

variable (q : Vec Ideal S1024x64 .bf16) (kb vb : Vec Ideal S1x2048x64 .f32) (mp lp : Vec Ideal S1024x1 .f32)
  (ap : Vec Ideal S1024x64 .f32) (qb : Vec Ideal S1x1024x64 .f32)

/-! ## The tile step -/

/-- The score tile: entry (i, k) is the inner product of query row i with key row k. -/
theorem pay8_apply (i : Fin 1024) (k : Fin 2048) :
    k0_pay8 (F := Ideal) q kb (ix2 i k) = ∑ d : Fin 64, q (ix2 i d) * kb (ix3 (0 : Fin 1) k d) := by
  unfold k0_pay8
  show FloatOps.matmul (F := Ideal) (φ₁ := .bf16) (φ₂ := .bf16) dot_S1024x64_S2048x64_S1024x2048_1_1_0_0_n_n none q _ (constant (F := Ideal) S1024x2048 .f32 0x00000000#32) (ix2 i k) = _
  rw [Ideal.matmul_constant_zero_apply, ← Equiv.sum_comp (contrEquiv1 dot_S1024x64_S2048x64_S1024x2048_1_1_0_0_n_n 64 rfl rfl).symm]
  refine Finset.sum_congr rfl fun d _ => ?_
  have hd := contrEquiv1_symm_val dot_S1024x64_S2048x64_S1024x2048_1_1_0_0_n_n 64 rfl rfl d
  have el : dot_S1024x64_S2048x64_S1024x2048_1_1_0_0_n_n.lhsIdx (ix2 i k) ((contrEquiv1 dot_S1024x64_S2048x64_S1024x2048_1_1_0_0_n_n 64 rfl rfl).symm d) = ix2 i d := funext fun a => Fin.ext (by
    match a with
    | ⟨0, _⟩ => exact lhs_qk_0 _ _
    | ⟨1, _⟩ => exact (lhs_qk_1 _ _).trans hd)
  have er : dot_S1024x64_S2048x64_S1024x2048_1_1_0_0_n_n.rhsIdx (ix2 i k) ((contrEquiv1 dot_S1024x64_S2048x64_S1024x2048_1_1_0_0_n_n 64 rfl rfl).symm d) = ix2 k d := funext fun a => Fin.ext (by
    match a with
    | ⟨0, _⟩ => exact rhs_qk_0 _ _
    | ⟨1, _⟩ => exact (rhs_qk_1 _ _).trans hd)
  rw [el, er, truncf_apply, shapeCast_1ab_ab_apply]

/-- The source index of a row reduction: row i of the tile with column k put back. -/
theorem lift_row (i : Fin 1024) (k : Fin 2048) : reduces_S1024x2048_S1024.lift (ix1 i) k = ix2 i k :=
  funext fun a => Fin.ext (by match a with | ⟨0, _⟩ => rfl | ⟨1, _⟩ => rfl)

/-- The word 0xFF800000 is −∞. -/
theorem ofBits_neg_inf : Ideal.ofBits .f32 0xFF800000#32 = (⊥ : EReal) := by simp [Ideal.ofBits, Ideal.ieee]

/-- The running row maximum after the tile: the larger of the previous maximum and the tile row's maximum. -/
theorem pay9_apply (i : Fin 1024) :
    k0_pay9 (F := Ideal) q kb mp (ix2 i (0 : Fin 1)) = max (mp (ix2 i (0 : Fin 1))) ((Finset.univ : Finset (Fin 2048)).fold max (⊥ : EReal) fun k => k0_pay8 (F := Ideal) q kb (ix2 i k)) := by
  unfold k0_pay9
  rw [maximumf_apply, Cert.Lib.Columns.shapeCast_a_a1_apply]
  refine congrArg (max _) ?_
  refine (Ideal.multiReduction_maximumf_single (k0_pay8 (F := Ideal) q kb) 0xFF800000#32 reduces_S1024x2048_S1024 (.inl rfl) rfl (ix1 i)).trans ?_
  show (Finset.univ : Finset (Fin 2048)).fold max (Ideal.ofBits .f32 0xFF800000#32) (fun k : Fin 2048 => k0_pay8 (F := Ideal) q kb (reduces_S1024x2048_S1024.lift (ix1 i) k)) = _
  rw [ofBits_neg_inf]
  exact congrArg (Finset.univ.fold max ⊥) (funext fun k => congrArg _ (lift_row i k))

/-- The rescaling factor of the previous sums: exp of the previous maximum less the new one. -/
theorem pay10_apply (i : Fin 1024) :
    k0_pay10 (F := Ideal) q kb mp (ix2 i (0 : Fin 1)) = Ideal.exp (mp (ix2 i (0 : Fin 1)) - k0_pay9 (F := Ideal) q kb mp (ix2 i (0 : Fin 1))) := rfl

/-- The tile's weights: exp of the score less the new row maximum. -/
theorem pay11_apply (i : Fin 1024) (k : Fin 2048) :
    k0_pay11 (F := Ideal) q kb mp (ix2 i k) = Ideal.exp (k0_pay8 (F := Ideal) q kb (ix2 i k) - k0_pay9 (F := Ideal) q kb mp (ix2 i (0 : Fin 1))) := by
  show Ideal.exp (k0_pay8 (F := Ideal) q kb (ix2 i k) - broadcastTo S1024x2048 (k0_pay9 (F := Ideal) q kb mp) broadcasts_S1024x1_S1024x2048 (ix2 i k)) = _
  rw [Cert.Lib.Columns.broadcastTo_a1_ab_apply]

/-- The running row sum after the tile: the previous sum rescaled, plus the tile row's weights. -/
theorem pay12_apply (i : Fin 1024) :
    k0_pay12 (F := Ideal) q kb mp lp (ix2 i (0 : Fin 1)) = k0_pay10 (F := Ideal) q kb mp (ix2 i (0 : Fin 1)) * lp (ix2 i (0 : Fin 1)) + ∑ k : Fin 2048, k0_pay11 (F := Ideal) q kb mp (ix2 i k) := by
  unfold k0_pay12
  rw [shapeCast_self, addf_apply, mulf_apply, Cert.Lib.Columns.shapeCast_a_a1_apply]
  refine congrArg (fun t : EReal => k0_pay10 (F := Ideal) q kb mp (ix2 i (0 : Fin 1)) * lp (ix2 i (0 : Fin 1)) + t) ?_
  refine (Ideal.multiReduction_add_single (k0_pay11 (F := Ideal) q kb mp) 0x00000000#32 reduces_S1024x2048_S1024 (.inl rfl) rfl (ix1 i)).trans ?_
  show ∑ k : Fin 2048, k0_pay11 (F := Ideal) q kb mp (reduces_S1024x2048_S1024.lift (ix1 i) k) = _
  exact Finset.sum_congr rfl fun k _ => congrArg _ (lift_row i k)

/-- The running numerator after the tile: the previous one rescaled, plus the tile's weights applied to the value rows. -/
theorem pay13_apply (i : Fin 1024) (d : Fin 64) :
    k0_pay13 (F := Ideal) q kb vb mp ap (ix2 i d) = k0_pay10 (F := Ideal) q kb mp (ix2 i (0 : Fin 1)) * ap (ix2 i d) + ∑ k : Fin 2048, k0_pay11 (F := Ideal) q kb mp (ix2 i k) * vb (ix3 (0 : Fin 1) k d) := by
  unfold k0_pay13
  rw [addf_apply, mulf_apply, Cert.Lib.Columns.broadcastTo_a1_ab_apply]
  refine congrArg (fun t : EReal => k0_pay10 (F := Ideal) q kb mp (ix2 i (0 : Fin 1)) * ap (ix2 i d) + t) ?_
  show FloatOps.matmul (F := Ideal) (φ₁ := .bf16) (φ₂ := .bf16) dot_S1024x2048_S2048x64_S1024x64_1_0_0_1_n_n none _ _ (constant (F := Ideal) S1024x64 .f32 0x00000000#32) (ix2 i d) = _
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 i d) ((contrEquiv1 dot_S1024x2048_S2048x64_S1024x64_1_0_0_1_n_n 2048 rfl rfl).symm k) = ix2 i k := funext fun a => Fin.ext (by
    match a with
    | ⟨0, _⟩ => exact lhs_pv_0 _ _
    | ⟨1, _⟩ => exact (lhs_pv_1 _ _).trans hk)
  have er : dot_S1024x2048_S2048x64_S1024x64_1_0_0_1_n_n.rhsIdx (ix2 i d) ((contrEquiv1 dot_S1024x2048_S2048x64_S1024x64_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er, truncf_apply, truncf_apply, shapeCast_1ab_ab_apply]

/-! ## The last tile's quotient, the staged query, and the pass-through and initial values -/

/-- The output block: the numerator divided by its row's sum. -/
theorem pay3_apply (acc : Vec Ideal S1024x64 .f32) (l : Vec Ideal S1024x1 .f32) (i : Fin 1024) (d : Fin 64) :
    k0_pay3 (F := Ideal) acc l (ix3 (0 : Fin 1) i d) = Ideal.div (acc (ix2 i d)) (l (ix2 i (0 : Fin 1))) := by
  unfold k0_pay3
  rw [shapeCast_ab_1ab_apply, divf_apply, Cert.Lib.Columns.broadcastTo_a1_ab_apply]

/-- The staged query block is the query block with its unit axis dropped. -/
theorem pay7_apply (i : Fin 1024) (d : Fin 64) : k0_pay7 (F := Ideal) qb (ix2 i d) = qb (ix3 (0 : Fin 1) i d) := by
  unfold k0_pay7
  rw [shapeCast_self, truncf_apply, shapeCast_1ab_ab_apply]

/-- The numerator is stored as it is. -/
theorem pay1_eq (x : Vec Ideal S1024x64 .f32) : k0_pay1 (F := Ideal) x = x := shapeCast_self _ _

/-- The row maximum is stored as it is. -/
theorem pay2_eq (x : Vec Ideal S1024x1 .f32) : k0_pay2 (F := Ideal) x = x := shapeCast_self _ _

/-- The initial row maximum is −∞. -/
theorem pay4_apply (j : S1024x1.Idx) : k0_pay4 (F := Ideal) j = (⊥ : EReal) := by
  unfold k0_pay4
  rw [shapeCast_self]
  exact ofBits_neg_inf

/-- The initial row sum is 0. -/
theorem pay5_apply (j : S1024x1.Idx) : k0_pay5 (F := Ideal) j = (0 : EReal) := by
  unfold k0_pay5
  rw [shapeCast_self]
  exact Ideal.ofBits_zero_f32

/-- The initial numerator is 0. -/
theorem pay6_apply (j : S1024x64.Idx) : k0_pay6 (F := Ideal) j = (0 : EReal) := by
  unfold k0_pay6
  rw [shapeCast_self]
  exact Ideal.ofBits_zero_f32

end Cert.KernelIdeal.PayloadAt

end
-- ==== Proof.BlockRead.lean ====
/-
  What the three input blocks at grid point t hold, entry by entry, in terms of the whole argument arrays.
  The grid is 32 × 4, its points numbered row-major: point t is batch row t / 4 and key tile t % 4. The query block at t
  is the [1, 1024, 64] block of the query array at block index (t / 4, 0, 0); the key and value blocks at t are the
  [1, 2048, 64] blocks of their arrays at block index (t / 4, t % 4, 0). A coordinate of the array under a block is
  block index × block extent + the coordinate inside the block, so entry (0, i, d) of the query block is entry
  (t / 4, i, d) of the query array, and entry (0, k, d) of the key (value) block is entry (t / 4, 2048 · (t % 4) + k, d)
  of the key (value) array.
-/
import proofs.«407558_j37718402793788_3_alg».proof.Proof.Gen.KernelIdeal.Frame
import Idealize.ShloMosaic.Lib.Pipeline.Value
import Idealize.ShloMosaic.Lib.ValueIdx

set_option maxRecDepth 16384

noncomputable section

namespace Cert.KernelIdeal.BlockRead

open Cert.KernelIdeal Cert.KernelIdeal.Gen Idealize.ShloMosaic Idealize.ShloMosaic.ValueIdx Idealize.ShloMosaic.TcCoe Idealize.SL.Sem

variable {F : FTy → Type} [FloatOps F] (m : (ℓ : Loc nD τ sig) → Buf (Elt F) ℓ)

/-- The batch row of a grid point is below 32: the grid has 128 = 32 · 4 points. -/
theorem batch_lt (t : Fin cfg0.N) : t.val / 4 < 32 := by
  have h := t.isLt
  have hN : cfg0.N = 128 := N_0
  omega

/-- Row k of key tile t % 4 is row 2048 · (t % 4) + k of the 8192 key rows. -/
theorem key_lt (t : Fin cfg0.N) (k : Fin 2048) : 2048 * (t.val % 4) + k.val < 8192 := by
  have h := k.isLt
  omega

/-- The query window's block index at point t is (t / 4, 0, 0), decided over the 128 points. -/
theorem qidx : ∀ t : Fin grid0.N,
    win0_0.index t (0 : Fin 3) = t.val / 4 ∧ win0_0.index t (1 : Fin 3) = 0 ∧ win0_0.index t (2 : Fin 3) = 0 := by
  decide +kernel

/-- The key window's block index at point t is (t / 4, t % 4, 0), decided over the 128 points. -/
theorem kidx : ∀ t : Fin grid0.N,
    win0_1.index t (0 : Fin 3) = t.val / 4 ∧ win0_1.index t (1 : Fin 3) = t.val % 4 ∧ win0_1.index t (2 : Fin 3) = 0 := by
  decide +kernel

/-- The value window's block index at point t is (t / 4, t % 4, 0), decided over the 128 points. -/
theorem vidx : ∀ t : Fin grid0.N,
    win0_2.index t (0 : Fin 3) = t.val / 4 ∧ win0_2.index t (1 : Fin 3) = t.val % 4 ∧ win0_2.index t (2 : Fin 3) = 0 := by
  decide +kernel

/-- Entry (0, i, d) of the query block at point t is entry (t / 4, i, d) of the query array. -/
theorem qblk_apply (c : Dev nD) (t : Fin cfg0.N) (i : Fin 1024) (d : Fin 64) :
    (iblk m c 0 t : Vec F S1x1024x64 .f32) (ix3 (0 : Fin 1) i d) = V m c main_arg0 (ix3 (⟨t.val / 4, batch_lt t⟩ : Fin 32) i d) := by
  obtain ⟨h0, h1, h2⟩ := qidx t
  unfold iblk
  rw [View.read_apply]
  show V m c main_arg0 (((cfg0.win 0).blk t).view.emb (ix3 (0 : Fin 1) i d)) = V m c main_arg0 _
  congr 1
  funext a
  apply Fin.ext
  match a with
  | ⟨0, _⟩ => show win0_0.index t 0 * 1 + 1 * (0 : Fin 1).val = t.val / 4; rw [h0]; simp
  | ⟨1, _⟩ => show win0_0.index t 1 * 1024 + 1 * i.val = i.val; rw [h1]; omega
  | ⟨2, _⟩ => show win0_0.index t 2 * 64 + 1 * d.val = d.val; rw [h2]; omega

/-- Entry (0, k, d) of the key block at point t is entry (t / 4, 2048 · (t % 4) + k, d) of the key array. -/
theorem kblk_apply (c : Dev nD) (t : Fin cfg0.N) (k : Fin 2048) (d : Fin 64) :
    (iblk m c 1 t : Vec F S1x2048x64 .f32) (ix3 (0 : Fin 1) k d) = V m c main_arg1 (ix3 (⟨t.val / 4, batch_lt t⟩ : Fin 32) (⟨2048 * (t.val % 4) + k.val, key_lt t k⟩ : Fin 8192) d) := by
  obtain ⟨h0, h1, h2⟩ := kidx t
  unfold iblk
  rw [View.read_apply]
  show V m c main_arg1 (((cfg0.win 1).blk t).view.emb (ix3 (0 : Fin 1) k d)) = V m c main_arg1 _
  congr 1
  funext a
  apply Fin.ext
  match a with
  | ⟨0, _⟩ => show win0_1.index t 0 * 1 + 1 * (0 : Fin 1).val = t.val / 4; rw [h0]; simp
  | ⟨1, _⟩ => show win0_1.index t 1 * 2048 + 1 * k.val = 2048 * (t.val % 4) + k.val; rw [h1]; omega
  | ⟨2, _⟩ => show win0_1.index t 2 * 64 + 1 * d.val = d.val; rw [h2]; omega

/-- Entry (0, k, d) of the value block at point t is entry (t / 4, 2048 · (t % 4) + k, d) of the value array. -/
theorem vblk_apply (c : Dev nD) (t : Fin cfg0.N) (k : Fin 2048) (d : Fin 64) :
    (iblk m c 2 t : Vec F S1x2048x64 .f32) (ix3 (0 : Fin 1) k d) = V m c main_arg2 (ix3 (⟨t.val / 4, batch_lt t⟩ : Fin 32) (⟨2048 * (t.val % 4) + k.val, key_lt t k⟩ : Fin 8192) d) := by
  obtain ⟨h0, h1, h2⟩ := vidx t
  unfold iblk
  rw [View.read_apply]
  show V m c main_arg2 (((cfg0.win 2).blk t).view.emb (ix3 (0 : Fin 1) k d)) = V m c main_arg2 _
  congr 1
  funext a
  apply Fin.ext
  match a with
  | ⟨0, _⟩ => show win0_2.index t 0 * 1 + 1 * (0 : Fin 1).val = t.val / 4; rw [h0]; simp
  | ⟨1, _⟩ => show win0_2.index t 1 * 2048 + 1 * k.val = 2048 * (t.val % 4) + k.val; rw [h1]; omega
  | ⟨2, _⟩ => show win0_2.index t 2 * 64 + 1 * d.val = d.val; rw [h2]; omega

end Cert.KernelIdeal.BlockRead

end
-- ==== Proof.OnlineSoftmax.lean ====
/-
  The mathematics of online softmax, for one row of scores, with no program in sight.

  A row has scores `s k` and values `v k` (reals, indexed by the key position `k : ℕ`). For a real shift `μ` write
    W μ n = ∑_{k<n} exp (s k - μ)            (the softmax denominator over the first `n` keys, shifted by `μ`)
    A μ n = ∑_{k<n} exp (s k - μ) · v k      (the matching numerator).
  Three facts carry everything:
    * RESCALING: exp (μ - μ') · W μ n = W μ' n, and the same for A  (exp (a + b) = exp a · exp b);
    * EXTENSION: W μ' (n + c) = W μ' n + ∑_{r<c} exp (s (n + r) - μ'), and the same for A;
    * SHIFT INVARIANCE: A μ n / W μ n does not depend on μ, and equals ∑_{k<n} (exp (s k - M) / W M n) · v k for any M,
      because W > 0 as soon as n > 0.
  The running maximum is used only through being a REAL number: a maximum, from -∞, of finitely many reals, at least one.
  The extended-real forms below read the same facts where the running state is stored: floats are extended reals, the
  first tile starts from the maximum -∞ and the sums 0, and exp (-∞) = 0.
-/
import Idealize.ShloMosaic.PureOps.Ideal
import Mathlib.Algebra.BigOperators.Fin
import Mathlib.Data.Finset.Fold

noncomputable section

namespace Cert.OnlineSoftmax

open Idealize.ShloMosaic

/-! ## Real sums -/

/-- The denominator over the first `n` keys at shift `μ`. -/
def W (s : ℕ → ℝ) (μ : ℝ) (n : ℕ) : ℝ := ∑ k ∈ Finset.range n, Real.exp (s k - μ)

/-- The numerator over the first `n` keys at shift `μ`. -/
def A (s v : ℕ → ℝ) (μ : ℝ) (n : ℕ) : ℝ := ∑ k ∈ Finset.range n, Real.exp (s k - μ) * v k

theorem exp_shift (x μ μ' : ℝ) : Real.exp (μ - μ') * Real.exp (x - μ) = Real.exp (x - μ') := by
  rw [← Real.exp_add]; congr 1; ring

/-- Rescaling the denominator from shift `μ` to shift `μ'`. -/
theorem W_rescale (s : ℕ → ℝ) (μ μ' : ℝ) (n : ℕ) : Real.exp (μ - μ') * W s μ n = W s μ' n := by
  unfold W
  rw [Finset.mul_sum]
  exact Finset.sum_congr rfl fun k _ => exp_shift _ _ _

/-- Rescaling the numerator. -/
theorem A_rescale (s v : ℕ → ℝ) (μ μ' : ℝ) (n : ℕ) : Real.exp (μ - μ') * A s v μ n = A s v μ' n := by
  unfold A
  rw [Finset.mul_sum]
  exact Finset.sum_congr rfl fun k _ => by rw [← mul_assoc, exp_shift]

/-- One more tile of `c` keys. -/
theorem W_add (s : ℕ → ℝ) (μ : ℝ) (n c : ℕ) :
    W s μ (n + c) = W s μ n + ∑ r : Fin c, Real.exp (s (n + r) - μ) := by
  unfold W
  rw [Finset.sum_range_add]
  exact congrArg _ (Finset.sum_range fun x => Real.exp (s (n + x) - μ))

theorem A_add (s v : ℕ → ℝ) (μ : ℝ) (n c : ℕ) :
    A s v μ (n + c) = A s v μ n + ∑ r : Fin c, Real.exp (s (n + r) - μ) * v (n + r) := by
  unfold A
  rw [Finset.sum_range_add]
  exact congrArg _ (Finset.sum_range fun x => Real.exp (s (n + x) - μ) * v (n + x))

theorem W_pos (s : ℕ → ℝ) (μ : ℝ) {n : ℕ} (hn : 0 < n) : 0 < W s μ n :=
  Finset.sum_pos (fun _ _ => Real.exp_pos _) ⟨0, Finset.mem_range.2 hn⟩

/-- Softmax does not see the shift: the quotient of numerator by denominator at shift `μ` is the weighted sum with the
    weights normalised at any other shift `M`. -/
theorem shift_invariance (s v : ℕ → ℝ) (μ M : ℝ) {n : ℕ} (hn : 0 < n) :
    A s v μ n / W s μ n = ∑ k ∈ Finset.range n, Real.exp (s k - M) / W s M n * v k := by
  have hW : W s M n ≠ 0 := (W_pos s M hn).ne'
  have hW' : W s μ n ≠ 0 := (W_pos s μ hn).ne'
  rw [← A_rescale s v M μ n, ← W_rescale s M μ n, mul_div_mul_left _ _ (Real.exp_pos _).ne']
  unfold A
  rw [Finset.sum_div]
  exact Finset.sum_congr rfl fun k _ => by rw [div_mul_eq_mul_div]

/-! ## The same on the extended reals -/

/-- The coercion of reals into the extended reals commutes with finite sums. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem exp_coe_sub (x y : ℝ) : Ideal.exp ((x : EReal) - (y : EReal)) = ((Real.exp (x - y) : ℝ) : EReal) := by
  rw [← EReal.coe_sub]; rfl

theorem exp_bot_sub (y : ℝ) : Ideal.exp ((⊥ : EReal) - (y : EReal)) = 0 := by
  rw [EReal.bot_sub]; rfl

/-- A maximum, taken from -∞, over finitely many reals of which there is at least one, is a real. -/
theorem fold_max_real {ι : Type*} (t : Finset ι) (ht : t.Nonempty) (f : ι → EReal) (hf : ∀ i ∈ t, ∃ r : ℝ, f i = r) :
    ∃ ν : ℝ, t.fold max (⊥ : EReal) f = ν := by
  have hbot : (⊥ : EReal) < t.fold max ⊥ f := by
    rw [Finset.lt_fold_max]
    obtain ⟨i, hi⟩ := ht
    obtain ⟨r, hr⟩ := hf i hi
    exact Or.inr ⟨i, hi, by rw [hr]; exact EReal.bot_lt_coe r⟩
  have htop : t.fold max ⊥ f < (⊤ : EReal) := by
    rw [Finset.fold_max_lt]
    refine ⟨bot_lt_top, fun i hi => ?_⟩
    obtain ⟨r, hr⟩ := hf i hi
    rw [hr]; exact EReal.coe_lt_top r
  exact ⟨_, (EReal.coe_toReal htop.ne hbot.ne').symm⟩

theorem max_coe (x y : ℝ) : max (x : EReal) (y : EReal) = ((max x y : ℝ) : EReal) :=
  (EReal.coe_strictMono.monotone.map_max).symm

/-! ## One row's running state -/

/-- The running state `(m, l, acc)` of one row TRACKS the first `n` keys: the running maximum is some real `μ`, the
    running sum is the denominator at shift `μ`, and column `d` of the running accumulator is the numerator of the
    values' column `d` at the same shift. (Which real `μ` is does not matter: softmax is shift invariant.) -/
def Tracks {δ : Type*} (s : ℕ → ℝ) (v : δ → ℕ → ℝ) (n : ℕ) (m l : EReal) (acc : δ → EReal) : Prop :=
  ∃ μ : ℝ, m = (μ : EReal) ∧ l = ((W s μ n : ℝ) : EReal) ∧ ∀ d, acc d = ((A s (v d) μ n : ℝ) : EReal)

/-- The sum of a tile's shifted exponentials, each score a real. -/
theorem tile_sum_exp {c : ℕ} (f : ℕ → ℝ) (μ : ℝ) (S : Fin c → EReal) (hS : ∀ r, S r = ((f r : ℝ) : EReal)) :
    ∑ r : Fin c, Ideal.exp (S r - (μ : EReal)) = ((∑ r : Fin c, Real.exp (f r - μ) : ℝ) : EReal) := by
  rw [coe_sum]
  exact Finset.sum_congr rfl fun r _ => by rw [hS, exp_coe_sub]

theorem tile_sum_exp_mul {c : ℕ} (f g : ℕ → ℝ) (μ : ℝ) (S T : Fin c → EReal) (hS : ∀ r, S r = ((f r : ℝ) : EReal))
    (hT : ∀ r, T r = ((g r : ℝ) : EReal)) :
    ∑ r : Fin c, Ideal.exp (S r - (μ : EReal)) * T r = ((∑ r : Fin c, Real.exp (f r - μ) * g r : ℝ) : EReal) := by
  rw [coe_sum]
  exact Finset.sum_congr rfl fun r _ => by rw [hS, hT, exp_coe_sub, EReal.coe_mul]

/-- THE FIRST TILE. From the maximum -∞ and the sums 0, one tile of `c ≥ 1` real scores leaves a state tracking those
    `c` keys: the new maximum is real, exp (-∞ - new) = 0 wipes the old sums, and what is added is the tile's own sums. -/
theorem Tracks.first {δ : Type*} (s : ℕ → ℝ) (v : δ → ℕ → ℝ) {c : ℕ} (hc : 0 < c)
    (S : Fin c → EReal) (hS : ∀ r, S r = ((s r : ℝ) : EReal))
    (T : Fin c → δ → EReal) (hT : ∀ r d, T r d = ((v d r : ℝ) : EReal)) :
    Tracks s v c (max (⊥ : EReal) (Finset.univ.fold max ⊥ S))
      (Ideal.exp ((⊥ : EReal) - max (⊥ : EReal) (Finset.univ.fold max ⊥ S)) * 0
        + ∑ r : Fin c, Ideal.exp (S r - max (⊥ : EReal) (Finset.univ.fold max ⊥ S)))
      (fun d => Ideal.exp ((⊥ : EReal) - max (⊥ : EReal) (Finset.univ.fold max ⊥ S)) * 0
        + ∑ r : Fin c, Ideal.exp (S r - max (⊥ : EReal) (Finset.univ.fold max ⊥ S)) * T r d) := by
  haveI : Nonempty (Fin c) := ⟨⟨0, hc⟩⟩
  obtain ⟨ν, hν⟩ := fold_max_real Finset.univ Finset.univ_nonempty S fun r _ => ⟨_, hS r⟩
  rw [hν, max_eq_right bot_le]
  refine ⟨ν, rfl, ?_, fun d => ?_⟩
  · rw [mul_zero, zero_add, tile_sum_exp s ν S hS]
    exact congrArg _ (Finset.sum_range fun k => Real.exp (s k - ν)).symm
  · dsimp only
    rw [mul_zero, zero_add, tile_sum_exp_mul s (v d) ν S (fun r => T r d) hS fun r => hT r d]
    exact congrArg _ (Finset.sum_range fun k => Real.exp (s k - ν) * v d k).symm

/-- THE NEXT TILE. A state tracking `n` keys, then one tile of `c ≥ 1` real scores: the new maximum is real, the old
    sums are rescaled to it, and the tile's own sums at the new shift are added: a state tracking `n + c` keys. -/
theorem Tracks.next {δ : Type*} {s : ℕ → ℝ} {v : δ → ℕ → ℝ} {n : ℕ} {m l : EReal} {acc : δ → EReal}
    (h : Tracks s v n m l acc) {c : ℕ} (hc : 0 < c)
    (S : Fin c → EReal) (hS : ∀ r, S r = ((s (n + r) : ℝ) : EReal))
    (T : Fin c → δ → EReal) (hT : ∀ r d, T r d = ((v d (n + r) : ℝ) : EReal)) :
    Tracks s v (n + c) (max m (Finset.univ.fold max ⊥ S))
      (Ideal.exp (m - max m (Finset.univ.fold max ⊥ S)) * l
        + ∑ r : Fin c, Ideal.exp (S r - max m (Finset.univ.fold max ⊥ S)))
      (fun d => Ideal.exp (m - max m (Finset.univ.fold max ⊥ S)) * acc d
        + ∑ r : Fin c, Ideal.exp (S r - max m (Finset.univ.fold max ⊥ S)) * T r d) := by
  haveI : Nonempty (Fin c) := ⟨⟨0, hc⟩⟩
  obtain ⟨μ, rfl, rfl, hacc⟩ := h
  obtain ⟨ν, hν⟩ := fold_max_real Finset.univ Finset.univ_nonempty S fun r _ => ⟨_, hS r⟩
  rw [hν, max_coe]
  refine ⟨max μ ν, rfl, ?_, fun d => ?_⟩
  · rw [exp_coe_sub, ← EReal.coe_mul, W_rescale, tile_sum_exp (fun r => s (n + r)) (max μ ν) S hS, ← EReal.coe_add, W_add]
  · dsimp only
    rw [hacc d, exp_coe_sub, ← EReal.coe_mul, A_rescale,
      tile_sum_exp_mul (fun r => s (n + r)) (fun r => v d (n + r)) (max μ ν) S (fun r => T r d) hS (fun r => hT r d),
      ← EReal.coe_add, A_add]

/-- THE OUTPUT. Dividing a tracked accumulator by the tracked sum gives what the plain softmax gives: the sum over
    the keys of the values weighted by exp (s k - M) / ∑ exp (s k' - M), with `M` the plain softmax's own maximum
    (taken from -∞, then once more against -∞), because the quotient does not see the shift. -/
theorem Tracks.out_eq_softmax {δ : Type*} {s : ℕ → ℝ} {v : δ → ℕ → ℝ} {n : ℕ} {m l : EReal} {acc : δ → EReal}
    (h : Tracks s v n m l acc) (hn : 0 < n) (d : δ)
    (S : Fin n → EReal) (hS : ∀ k, S k = ((s k : ℝ) : EReal))
    (T : Fin n → EReal) (hT : ∀ k, T k = ((v d k : ℝ) : EReal)) :
    Ideal.div (acc d) l
      = ∑ k : Fin n, Ideal.div (Ideal.exp (S k - max (⊥ : EReal) (Finset.univ.fold max ⊥ S)))
          (0 + ∑ k' : Fin n, Ideal.exp (S k' - max (⊥ : EReal) (Finset.univ.fold max ⊥ S))) * T k := by
  haveI : Nonempty (Fin n) := ⟨⟨0, hn⟩⟩
  obtain ⟨μ, -, rfl, hacc⟩ := h
  obtain ⟨M, hM⟩ := fold_max_real Finset.univ Finset.univ_nonempty S fun r _ => ⟨_, hS r⟩
  rw [hM, max_eq_right bot_le, zero_add, tile_sum_exp s M S hS]
  have hWM : (∑ r : Fin n, Real.exp (s r - M)) = W s M n := (Finset.sum_range fun k => Real.exp (s k - M)).symm
  rw [hWM, hacc d, Ideal.div_coe (W_pos s μ hn).ne', ← EReal.coe_mul, mul_one_div, shift_invariance s (v d) μ M hn,
    Finset.sum_range (fun k => Real.exp (s k - M) / W s M n * v d k), coe_sum]
  refine Finset.sum_congr rfl fun k _ => ?_
  rw [hS, hT, exp_coe_sub, Ideal.div_coe (W_pos s M hn).ne', ← EReal.coe_mul, mul_one_div, ← EReal.coe_mul]

end Cert.OnlineSoftmax

end
-- ==== Proof.Invariant.lean ====
import proofs.«407558_j37718402793788_3_alg».proof.Proof.PointState
import proofs.«407558_j37718402793788_3_alg».proof.Proof.PayloadAt
import proofs.«407558_j37718402793788_3_alg».proof.Proof.BlockRead
import proofs.«407558_j37718402793788_3_alg».proof.Proof.OnlineSoftmax

set_option maxRecDepth 16384

noncomputable section

/-! The invariant of the grid walk. Point `n` is key tile `n % 4` of batch row `n / 4`. After point `n`, for every
    query row `i` of that batch row, the running maximum, running sum and accumulator TRACK the first
    `2048 · (n % 4 + 1)` keys (Cert.OnlineSoftmax.Tracks): the maximum is a real `μ`, the sum is ∑ exp (s k - μ) and the
    accumulator's column `d` is ∑ exp (s k - μ) · v k d over those keys, with `s k = ⟨q_i, key_k⟩`; and the cached
    query tile is the batch row's query block. The first tile establishes it from (-∞, 0, 0), every later tile extends
    it by 2048 keys. All inputs are real numbers here (the precondition), named `qr`, `kr`, `vr`. -/

namespace Cert.KernelIdeal.Online

open Cert.KernelIdeal Cert.KernelIdeal.Gen Cert.KernelIdeal.PointState Cert.KernelIdeal.PayloadAt Cert.KernelIdeal.BlockRead
open Cert.OnlineSoftmax
open Idealize.ShloMosaic Idealize.ShloMosaic.ValueIdx Idealize.ShloMosaic.TcCoe Idealize.SL.Sem

variable (m : (ℓ : Loc nD τ sig) → Buf (Elt Ideal) ℓ) (c : Dev nD)
variable (qr : S32x1024x64.Idx → ℝ) (kr vr : S32x8192x64.Idx → ℝ)

/-- The three argument arrays as the region finds them. -/
abbrev Qa : S32x1024x64.Idx → EReal := V m c main_arg0
abbrev Ka : S32x8192x64.Idx → EReal := V m c main_arg1
abbrev Va : S32x8192x64.Idx → EReal := V m c main_arg2

/-- The score of query row `(b, i)` against the key at position `k` (0 past the last key). -/
def sc (b : Fin 32) (i : Fin 1024) (k : ℕ) : ℝ :=
  if h : k < 8192 then ∑ d : Fin 64, qr (ix3 b i d) * kr (ix3 b ⟨k, h⟩ d) else 0

/-- Column `d` of the value at key position `k` of batch row `b`. -/
def vv (b : Fin 32) (d : Fin 64) (k : ℕ) : ℝ := if h : k < 8192 then vr (ix3 b ⟨k, h⟩ d) else 0

theorem N128 : cfg0.N = 128 := N_0

/-- The batch row of point `n`. -/
abbrev row (n : ℕ) (h : n < cfg0.N) : Fin 32 := ⟨n / 4, by have := lt_of_lt_of_eq h N128; omega⟩

theorem key (n : ℕ) (h : n < cfg0.N) (r : Fin 2048) : 2048 * (n % 4) + r.val < 8192 := by
  have := r.isLt; have := Nat.mod_lt n (by decide : 0 < 4); omega

/-- The blocks of point `n`, entry by entry, in the argument arrays. -/
theorem qblk_at (n : ℕ) (h : n < cfg0.N) (i : Fin 1024) (d : Fin 64) :
    qblk m c ⟨n, h⟩ (ix3 (0 : Fin 1) i d) = Qa m c (ix3 (row n h) i d) := qblk_apply m c ⟨n, h⟩ i d

theorem kblk_at (n : ℕ) (h : n < cfg0.N) (r : Fin 2048) (d : Fin 64) :
    kblk m c ⟨n, h⟩ (ix3 (0 : Fin 1) r d) = Ka m c (ix3 (row n h) ⟨2048 * (n % 4) + r.val, key n h r⟩ d) :=
  kblk_apply m c ⟨n, h⟩ r d

theorem vblk_at (n : ℕ) (h : n < cfg0.N) (r : Fin 2048) (d : Fin 64) :
    vblk m c ⟨n, h⟩ (ix3 (0 : Fin 1) r d) = Va m c (ix3 (row n h) ⟨2048 * (n % 4) + r.val, key n h r⟩ d) :=
  vblk_apply m c ⟨n, h⟩ r d

/-- A tile's scores are the row's scores at the tile's key positions: the tile of point `n` holds keys
    `2048 · (n % 4) + r`. -/
theorem score_tile (hq : ∀ j, Qa m c j = ((qr j : ℝ) : EReal)) (hk : ∀ j, Ka m c j = ((kr j : ℝ) : EReal))
    (n : ℕ) (h : n < cfg0.N) (q : Vec Ideal S1024x64 .bf16)
    (hqt : ∀ i d, q (ix2 i d) = Qa m c (ix3 (row n h) i d)) (i : Fin 1024) (r : Fin 2048) :
    k0_pay8 (F := Ideal) q (kblk m c ⟨n, h⟩) (ix2 i r)
      = ((sc qr kr (row n h) i (2048 * (n % 4) + r.val) : ℝ) : EReal) := by
  rw [pay8_apply q (kblk m c ⟨n, h⟩) i r, sc, dif_pos (key n h r), coe_sum]
  refine Finset.sum_congr rfl fun d _ => ?_
  rw [hqt i d, hq, kblk_at m c n h r d, hk, EReal.coe_mul]

theorem value_tile (hv : ∀ j, Va m c j = ((vr j : ℝ) : EReal)) (n : ℕ) (h : n < cfg0.N) (r : Fin 2048) (d : Fin 64) :
    vblk m c ⟨n, h⟩ (ix3 (0 : Fin 1) r d) = ((vv vr (row n h) d (2048 * (n % 4) + r.val) : ℝ) : EReal) := by
  rw [vblk_at m c n h r d, hv, vv, dif_pos (key n h r)]

/-- THE INVARIANT after point `n`. -/
def Inv (n : ℕ) (h : n < cfg0.N) : Prop :=
  (∀ (i : Fin 1024) (d : Fin 64), qS m c n h (ix2 i d) = Qa m c (ix3 (row n h) i d))
  ∧ ∀ i : Fin 1024, Tracks (sc qr kr (row n h) i) (vv vr (row n h)) (2048 * (n % 4 + 1))
      (mS m c n h (ix2 i (0 : Fin 1))) (lS m c n h (ix2 i (0 : Fin 1))) (fun d => aS m c n h (ix2 i d))

/-- The first tile of a batch row establishes the invariant. -/
theorem inv_first (hq : ∀ j, Qa m c j = ((qr j : ℝ) : EReal)) (hk : ∀ j, Ka m c j = ((kr j : ℝ) : EReal))
    (hv : ∀ j, Va m c j = ((vr j : ℝ) : EReal)) (n : ℕ) (h : n < cfg0.N) (h0 : n % 4 = 0) :
    Inv m c qr kr vr n h := by
  have h1 : ¬n % 4 = 3 := by omega
  have eq_q : qS m c n h = k0_pay7 (qblk m c ⟨n, h⟩) := by
    have e := qS_A m c ⟨n, h⟩ h0 h1
    exact e
  have eq_m : mS m c n h = k0_pay2 (k0_pay9 (k0_pay7 (qblk m c ⟨n, h⟩)) (kblk m c ⟨n, h⟩) (k0_pay4 (F := Ideal))) := by
    have e := mS_A m c ⟨n, h⟩ h0 h1
    exact e
  have eq_l : lS m c n h = k0_pay12 (k0_pay7 (qblk m c ⟨n, h⟩)) (kblk m c ⟨n, h⟩) (k0_pay4 (F := Ideal)) (k0_pay5 (F := Ideal)) := by
    have e := lS_A m c ⟨n, h⟩ h0 h1
    exact e
  have eq_a : aS m c n h = k0_pay1 (k0_pay13 (k0_pay7 (qblk m c ⟨n, h⟩)) (kblk m c ⟨n, h⟩) (vblk m c ⟨n, h⟩) (k0_pay4 (F := Ideal)) (k0_pay6 (F := Ideal))) := by
    have e := aS_A m c ⟨n, h⟩ h0 h1
    exact e
  have hqt : ∀ i d, k0_pay7 (F := Ideal) (qblk m c ⟨n, h⟩) (ix2 i d) = Qa m c (ix3 (row n h) i d) := fun i d => by
    rw [pay7_apply (qblk m c ⟨n, h⟩) i d, qblk_at m c n h i d]
  refine ⟨fun i d => by rw [eq_q]; exact hqt i d, fun i => ?_⟩
  have hn : 2048 * (n % 4 + 1) = 2048 := by omega
  have hS : ∀ r : Fin 2048, k0_pay8 (F := Ideal) (k0_pay7 (qblk m c ⟨n, h⟩)) (kblk m c ⟨n, h⟩) (ix2 i r)
      = ((sc qr kr (row n h) i r.val : ℝ) : EReal) := fun r => by
    rw [score_tile m c qr kr hq hk n h _ hqt i r]
    have e : 2048 * (n % 4) + r.val = r.val := by omega
    rw [e]
  have hT : ∀ (r : Fin 2048) (d : Fin 64), vblk m c ⟨n, h⟩ (ix3 (0 : Fin 1) r d) = ((vv vr (row n h) d r.val : ℝ) : EReal) :=
    fun r d => by
      rw [value_tile m c vr hv n h r d]
      have e : 2048 * (n % 4) + r.val = r.val := by omega
      rw [e]
  have hm : mS m c n h (ix2 i (0 : Fin 1))
      = max (⊥ : EReal) (Finset.univ.fold max ⊥ fun r : Fin 2048 => k0_pay8 (F := Ideal) (k0_pay7 (qblk m c ⟨n, h⟩)) (kblk m c ⟨n, h⟩) (ix2 i r)) := by
    rw [eq_m, pay2_eq, pay9_apply (k0_pay7 (qblk m c ⟨n, h⟩)) (kblk m c ⟨n, h⟩) (k0_pay4 (F := Ideal)) i, pay4_apply]
  have hl : lS m c n h (ix2 i (0 : Fin 1))
      = Ideal.exp ((⊥ : EReal) - mS m c n h (ix2 i (0 : Fin 1))) * 0
        + ∑ r : Fin 2048, Ideal.exp (k0_pay8 (F := Ideal) (k0_pay7 (qblk m c ⟨n, h⟩)) (kblk m c ⟨n, h⟩) (ix2 i r) - mS m c n h (ix2 i (0 : Fin 1))) := by
    rw [eq_l, pay12_apply (k0_pay7 (qblk m c ⟨n, h⟩)) (kblk m c ⟨n, h⟩) (k0_pay4 (F := Ideal)) (k0_pay5 (F := Ideal)) i,
      pay10_apply (k0_pay7 (qblk m c ⟨n, h⟩)) (kblk m c ⟨n, h⟩) (k0_pay4 (F := Ideal)) i, pay4_apply, pay5_apply, eq_m, pay2_eq]
    exact congrArg _ (Finset.sum_congr rfl fun r _ => pay11_apply (k0_pay7 (qblk m c ⟨n, h⟩)) (kblk m c ⟨n, h⟩) (k0_pay4 (F := Ideal)) i r)
  have ha : (fun d : Fin 64 => aS m c n h (ix2 i d))
      = fun d => Ideal.exp ((⊥ : EReal) - mS m c n h (ix2 i (0 : Fin 1))) * 0
        + ∑ r : Fin 2048, Ideal.exp (k0_pay8 (F := Ideal) (k0_pay7 (qblk m c ⟨n, h⟩)) (kblk m c ⟨n, h⟩) (ix2 i r) - mS m c n h (ix2 i (0 : Fin 1)))
            * vblk m c ⟨n, h⟩ (ix3 (0 : Fin 1) r d) := funext fun d => by
    rw [eq_a, pay1_eq, pay13_apply (k0_pay7 (qblk m c ⟨n, h⟩)) (kblk m c ⟨n, h⟩) (vblk m c ⟨n, h⟩) (k0_pay4 (F := Ideal)) (k0_pay6 (F := Ideal)) i d,
      pay10_apply (k0_pay7 (qblk m c ⟨n, h⟩)) (kblk m c ⟨n, h⟩) (k0_pay4 (F := Ideal)) i, pay4_apply, pay6_apply, eq_m, pay2_eq]
    exact congrArg _ (Finset.sum_congr rfl fun r _ => by
      rw [pay11_apply (k0_pay7 (qblk m c ⟨n, h⟩)) (kblk m c ⟨n, h⟩) (k0_pay4 (F := Ideal)) i r])
  rw [hn, hl, ha, hm]
  exact Tracks.first (sc qr kr (row n h) i) (vv vr (row n h)) (by decide : 0 < 2048) _ hS _ hT

/-- Every later tile extends the invariant by its 2048 keys, whichever of the two later cases it is: both leave the
    same three updates of what the tile before left, and keep the cached query tile. -/
theorem inv_next (hq : ∀ j, Qa m c j = ((qr j : ℝ) : EReal)) (hk : ∀ j, Ka m c j = ((kr j : ℝ) : EReal))
    (hv : ∀ j, Va m c j = ((vr j : ℝ) : EReal)) (n : ℕ) (h : n + 1 < cfg0.N) (h0 : ¬(n + 1) % 4 = 0)
    (IH : Inv m c qr kr vr n (Nat.lt_of_succ_lt h))
    (eq_q : qS m c (n + 1) h = qS m c n (Nat.lt_of_succ_lt h))
    (eq_m : mS m c (n + 1) h = k0_pay2 (k0_pay9 (qS m c n (Nat.lt_of_succ_lt h)) (kblk m c ⟨n + 1, h⟩) (mS m c n (Nat.lt_of_succ_lt h))))
    (eq_l : lS m c (n + 1) h = k0_pay12 (qS m c n (Nat.lt_of_succ_lt h)) (kblk m c ⟨n + 1, h⟩) (mS m c n (Nat.lt_of_succ_lt h)) (lS m c n (Nat.lt_of_succ_lt h)))
    (eq_a : aS m c (n + 1) h = k0_pay1 (k0_pay13 (qS m c n (Nat.lt_of_succ_lt h)) (kblk m c ⟨n + 1, h⟩) (vblk m c ⟨n + 1, h⟩)
      (mS m c n (Nat.lt_of_succ_lt h)) (aS m c n (Nat.lt_of_succ_lt h)))) :
    Inv m c qr kr vr (n + 1) h := by
  have hrow : row (n + 1) h = row n (Nat.lt_of_succ_lt h) := Fin.ext (by show (n + 1) / 4 = n / 4; omega)
  have hmod : (n + 1) % 4 = n % 4 + 1 := by omega
  obtain ⟨IHq, IHt⟩ := IH
  have hqt : ∀ i d, qS m c n (Nat.lt_of_succ_lt h) (ix2 i d) = Qa m c (ix3 (row (n + 1) h) i d) := fun i d => by
    rw [hrow]; exact IHq i d
  refine ⟨fun i d => by rw [eq_q]; exact hqt i d, fun i => ?_⟩
  have hn : 2048 * ((n + 1) % 4 + 1) = 2048 * (n % 4 + 1) + 2048 := by omega
  have hS : ∀ r : Fin 2048, k0_pay8 (F := Ideal) (qS m c n (Nat.lt_of_succ_lt h)) (kblk m c ⟨n + 1, h⟩) (ix2 i r)
      = ((sc qr kr (row n (Nat.lt_of_succ_lt h)) i (2048 * (n % 4 + 1) + r.val) : ℝ) : EReal) := fun r => by
    rw [score_tile m c qr kr hq hk (n + 1) h _ hqt i r, hrow, hmod]
  have hT : ∀ (r : Fin 2048) (d : Fin 64), vblk m c ⟨n + 1, h⟩ (ix3 (0 : Fin 1) r d)
      = ((vv vr (row n (Nat.lt_of_succ_lt h)) d (2048 * (n % 4 + 1) + r.val) : ℝ) : EReal) := fun r d => by
    rw [value_tile m c vr hv (n + 1) h r d, hrow, hmod]
  have hm : mS m c (n + 1) h (ix2 i (0 : Fin 1))
      = max (mS m c n (Nat.lt_of_succ_lt h) (ix2 i (0 : Fin 1)))
          (Finset.univ.fold max ⊥ fun r : Fin 2048 => k0_pay8 (F := Ideal) (qS m c n (Nat.lt_of_succ_lt h)) (kblk m c ⟨n + 1, h⟩) (ix2 i r)) := by
    rw [eq_m, pay2_eq, pay9_apply (qS m c n (Nat.lt_of_succ_lt h)) (kblk m c ⟨n + 1, h⟩) (mS m c n (Nat.lt_of_succ_lt h)) i]
  have hl : lS m c (n + 1) h (ix2 i (0 : Fin 1))
      = Ideal.exp (mS m c n (Nat.lt_of_succ_lt h) (ix2 i (0 : Fin 1)) - mS m c (n + 1) h (ix2 i (0 : Fin 1))) * lS m c n (Nat.lt_of_succ_lt h) (ix2 i (0 : Fin 1))
        + ∑ r : Fin 2048, Ideal.exp (k0_pay8 (F := Ideal) (qS m c n (Nat.lt_of_succ_lt h)) (kblk m c ⟨n + 1, h⟩) (ix2 i r) - mS m c (n + 1) h (ix2 i (0 : Fin 1))) := by
    rw [eq_l, pay12_apply (qS m c n (Nat.lt_of_succ_lt h)) (kblk m c ⟨n + 1, h⟩) (mS m c n (Nat.lt_of_succ_lt h)) (lS m c n (Nat.lt_of_succ_lt h)) i,
      pay10_apply (qS m c n (Nat.lt_of_succ_lt h)) (kblk m c ⟨n + 1, h⟩) (mS m c n (Nat.lt_of_succ_lt h)) i, eq_m, pay2_eq]
    exact congrArg _ (Finset.sum_congr rfl fun r _ =>
      pay11_apply (qS m c n (Nat.lt_of_succ_lt h)) (kblk m c ⟨n + 1, h⟩) (mS m c n (Nat.lt_of_succ_lt h)) i r)
  have ha : (fun d : Fin 64 => aS m c (n + 1) h (ix2 i d))
      = fun d => Ideal.exp (mS m c n (Nat.lt_of_succ_lt h) (ix2 i (0 : Fin 1)) - mS m c (n + 1) h (ix2 i (0 : Fin 1))) * aS m c n (Nat.lt_of_succ_lt h) (ix2 i d)
        + ∑ r : Fin 2048, Ideal.exp (k0_pay8 (F := Ideal) (qS m c n (Nat.lt_of_succ_lt h)) (kblk m c ⟨n + 1, h⟩) (ix2 i r) - mS m c (n + 1) h (ix2 i (0 : Fin 1)))
            * vblk m c ⟨n + 1, h⟩ (ix3 (0 : Fin 1) r d) := funext fun d => by
    rw [eq_a, pay1_eq, pay13_apply (qS m c n (Nat.lt_of_succ_lt h)) (kblk m c ⟨n + 1, h⟩) (vblk m c ⟨n + 1, h⟩) (mS m c n (Nat.lt_of_succ_lt h)) (aS m c n (Nat.lt_of_succ_lt h)) i d,
      pay10_apply (qS m c n (Nat.lt_of_succ_lt h)) (kblk m c ⟨n + 1, h⟩) (mS m c n (Nat.lt_of_succ_lt h)) i, eq_m, pay2_eq]
    exact congrArg _ (Finset.sum_congr rfl fun r _ => by
      rw [pay11_apply (qS m c n (Nat.lt_of_succ_lt h)) (kblk m c ⟨n + 1, h⟩) (mS m c n (Nat.lt_of_succ_lt h)) i r])
  rw [hn, hrow, hl, ha, hm]
  exact Tracks.next (IHt i) (by decide : 0 < 2048) _ hS _ hT

/-- The invariant holds after every point: by induction along the grid walk. -/
theorem inv (hq : ∀ j, Qa m c j = ((qr j : ℝ) : EReal)) (hk : ∀ j, Ka m c j = ((kr j : ℝ) : EReal))
    (hv : ∀ j, Va m c j = ((vr j : ℝ) : EReal)) : ∀ (n : ℕ) (h : n < cfg0.N), Inv m c qr kr vr n h
  | 0, h => inv_first m c qr kr vr hq hk hv 0 h rfl
  | n + 1, h => by
    by_cases h0 : (n + 1) % 4 = 0
    · exact inv_first m c qr kr vr hq hk hv (n + 1) h h0
    · have IH := inv hq hk hv n (Nat.lt_of_succ_lt h)
      by_cases h1 : (n + 1) % 4 = 3
      · have eq_q : qS m c (n + 1) h = qS m c n (Nat.lt_of_succ_lt h) := by
          have e := qS_C m c ⟨n + 1, h⟩ h0 h1
          exact e
        have eq_m : mS m c (n + 1) h = k0_pay2 (k0_pay9 (qS m c n (Nat.lt_of_succ_lt h)) (kblk m c ⟨n + 1, h⟩) (mS m c n (Nat.lt_of_succ_lt h))) := by
          have e := mS_C m c ⟨n + 1, h⟩ h0 h1
          exact e
        have eq_l : lS m c (n + 1) h = k0_pay12 (qS m c n (Nat.lt_of_succ_lt h)) (kblk m c ⟨n + 1, h⟩) (mS m c n (Nat.lt_of_succ_lt h)) (lS m c n (Nat.lt_of_succ_lt h)) := by
          have e := lS_C m c ⟨n + 1, h⟩ h0 h1
          exact e
        have eq_a : aS m c (n + 1) h = k0_pay1 (k0_pay13 (qS m c n (Nat.lt_of_succ_lt h)) (kblk m c ⟨n + 1, h⟩) (vblk m c ⟨n + 1, h⟩)
            (mS m c n (Nat.lt_of_succ_lt h)) (aS m c n (Nat.lt_of_succ_lt h))) := by
          have e := aS_C m c ⟨n + 1, h⟩ h0 h1
          exact e
        exact inv_next m c qr kr vr hq hk hv n h h0 IH eq_q eq_m eq_l eq_a
      · have eq_q : qS m c (n + 1) h = qS m c n (Nat.lt_of_succ_lt h) := by
          have e := qS_B m c ⟨n + 1, h⟩ h0 h1
          exact e
        have eq_m : mS m c (n + 1) h = k0_pay2 (k0_pay9 (qS m c n (Nat.lt_of_succ_lt h)) (kblk m c ⟨n + 1, h⟩) (mS m c n (Nat.lt_of_succ_lt h))) := by
          have e := mS_B m c ⟨n + 1, h⟩ h0 h1
          exact e
        have eq_l : lS m c (n + 1) h = k0_pay12 (qS m c n (Nat.lt_of_succ_lt h)) (kblk m c ⟨n + 1, h⟩) (mS m c n (Nat.lt_of_succ_lt h)) (lS m c n (Nat.lt_of_succ_lt h)) := by
          have e := lS_B m c ⟨n + 1, h⟩ h0 h1
          exact e
        have eq_a : aS m c (n + 1) h = k0_pay1 (k0_pay13 (qS m c n (Nat.lt_of_succ_lt h)) (kblk m c ⟨n + 1, h⟩) (vblk m c ⟨n + 1, h⟩)
            (mS m c n (Nat.lt_of_succ_lt h)) (aS m c n (Nat.lt_of_succ_lt h))) := by
          have e := aS_B m c ⟨n + 1, h⟩ h0 h1
          exact e
        exact inv_next m c qr kr vr hq hk hv n h h0 IH eq_q eq_m eq_l eq_a

/-- At a last tile the output block is the accumulator just left divided by the running sum just left. -/
theorem out_last (n : ℕ) (h : n < cfg0.N) (h3 : n % 4 = 3) (i : Fin 1024) (d : Fin 64) :
    oS m c n h (ix3 (0 : Fin 1) i d) = Ideal.div (aS m c n h (ix2 i d)) (lS m c n h (ix2 i (0 : Fin 1))) := by
  have h0 : ¬n % 4 = 0 := by omega
  have e : oS m c n h = k0_pay3 (aS m c n h) (lS m c n h) := by
    have ea := aS_C m c ⟨n, h⟩ h0 h3
    have el := lS_C m c ⟨n, h⟩ h0 h3
    have eo := oS_C m c ⟨n, h⟩ h0 h3
    have ea' : aS m c n h = _ := ea
    have el' : lS m c n h = _ := el
    rw [ea', el']
    exact eo
  rw [e, pay3_apply (aS m c n h) (lS m c n h) i d]

end Cert.KernelIdeal.Online

end
-- ==== Proof.OutputArray.lean ====
/-
  From the output block at each writing grid point to the whole output array.

  The grid is 32 × 4, row-major: point t has batch row t / 4 and key tile t % 4. The output window's block is one
  batch row [1, 1024, 64] of the array [32, 1024, 64], at block index (t / 4, 0, 0). The block is written back to
  the array exactly at the last key tile of each batch row (t % 4 = 3). The 32 blocks written back are the 32 batch
  rows: they tile the array. So if, at every such point, the block holds batch row t / 4 of one array-wide function
  G, the array ends equal to G.

  Steps: (1) the block index at a point, decided over the grid; (2) an element (0, i, d) of the block at point t
  sits in the array at (t / 4, i, d); (3) what a writing point writes back is its block of G; (4) array index
  (b, i, d) lies in the block of the point 4 b + 3, which writes back; (5) the array after the run is G.
-/
import proofs.«407558_j37718402793788_3_alg».proof.Proof.Gen.KernelIdeal.Value
import Idealize.ShloMosaic.Lib.Pipeline.Value
import Idealize.ShloMosaic.Lib.ValueIdx

set_option maxRecDepth 16384

noncomputable section

namespace Cert.KernelIdeal.OutputArray

open Cert.KernelIdeal Cert.KernelIdeal.Gen Cert.KernelIdeal.Value Idealize.ShloMosaic Idealize.ShloMosaic.ValueIdx
  Idealize.ShloMosaic.TcCoe Idealize.SL.Sem
open Idealize.ShloMosaic.Pipeline (Dat)

variable {F : FTy → Type} [FloatOps F]
variable (m : (ℓ : Loc nD τ sig) → Buf (Elt F) ℓ)

/-- The batch row of a grid point: the grid has 128 = 32 · 4 points, so t / 4 is below 32. -/
theorem batch_lt (t : Fin cfg0.N) : t.val / 4 < 32 := by
  have h : t.val < 128 := lt_of_lt_of_eq t.isLt (show cfg0.N = 128 from N_0)
  omega

/-- The output window's block index at point t is (t / 4, 0, 0): decided over the 128 points. -/
theorem idx_facts : ∀ t : Fin cfg0.N, win0_3.index t (0 : Fin 3) = t.val / 4
    ∧ win0_3.index t (1 : Fin 3) = 0 ∧ win0_3.index t (2 : Fin 3) = 0 :=
  (by decide +kernel : ∀ t : Fin grid0.N, win0_3.index t (0 : Fin 3) = t.val / 4
    ∧ win0_3.index t (1 : Fin 3) = 0 ∧ win0_3.index t (2 : Fin 3) = 0)

/-- Element (y0, y1, y2) of the block at point t sits in the array at (t / 4, y1, y2): on each axis the array
    coordinate is block index × block size + the block coordinate, and y0 < 1 is 0. -/
theorem emb_eq (t : Fin cfg0.N) (y0 : Fin 1) (y1 : Fin 1024) (y2 : Fin 64) :
    ((cfg0.win 3).blk t).view.emb (ix3 y0 y1 y2) = ix3 (⟨t.val / 4, batch_lt t⟩ : Fin 32) y1 y2 := by
  obtain ⟨e0, e1, e2⟩ := idx_facts t
  funext a; apply Fin.ext
  match a with
  | ⟨0, _⟩ => show win0_3.index t (0 : Fin 3) * 1 + 1 * y0.val = t.val / 4; have := y0.isLt; omega
  | ⟨1, _⟩ => show win0_3.index t (1 : Fin 3) * 1024 + 1 * y1.val = y1.val; omega
  | ⟨2, _⟩ => show win0_3.index t (2 : Fin 3) * 64 + 1 * y2.val = y2.val; omega

/-- What a writing point t (t % 4 = 3) writes back is block t of G: the block lies inside the array, so the
    write-back moves the whole block, and element by element the block's contents are G at the element's place in
    the array. -/
theorem flushed_eq (c : Dev nD) (G : S32x1024x64.Idx → Elt F .f32)
    (hG : ∀ (t : Fin cfg0.N), t.val % 4 = 3 → ∀ (i : Fin 1024) (d : Fin 64),
      ((outsAt0 m c t.val t.isLt).1 : Vec F S1x1024x64 .f32) (ix3 (0 : Fin 1) i d) = G (ix3 (⟨t.val / 4, batch_lt t⟩ : Fin 32) i d))
    (t : Fin cfg0.N) (hf : (cfg0.win 3).flush t = true) :
    (dats m 0 c).flushed 3 t = ((cfg0.win 3).blk t).view.read (Elt F) G := by
  have h3 : t.val % 4 = 3 := (flush0_3 t).mp hf
  rw [flushed3]
  funext y
  rw [View.read_apply]
  show ((outsAt0 m c t.val t.isLt).1 : Vec F S1x1024x64 .f32) y = G (((cfg0.win 3).blk t).view.emb y)
  obtain ⟨y0, y1, y2, rfl⟩ : ∃ (a : Fin 1) (b : Fin 1024) (d : Fin 64), y = ix3 a b d :=
    ⟨y 0, y 1, y 2, eq_ix3 (n0 := 1) (n1 := 1024) (n2 := 64) y⟩
  rw [emb_eq]
  obtain rfl : y0 = 0 := Subsingleton.elim _ _
  exact hG t h3 y1 y2

/-- An array index is in point t's block iff on every axis it lies in block index × size ≤ · < block index × size + size. -/
theorem mem_blk (t : Fin cfg0.N) (j : S32x1024x64.Idx) :
    j ∈ ((cfg0.win 3).blk t).view.set ↔ ∀ a : Fin 3, win0_3.index t a * S1x1024x64.size a ≤ (j a).val
      ∧ (j a).val < win0_3.index t a * S1x1024x64.size a + S1x1024x64.size a := by
  show j ∈ ((View.whole main_v0).slice (win0_3.rect t)).set ↔ _
  rw [View.set_slice_whole, Rect.mem_set_unit]
  exact Iff.rfl

/-- The written-back blocks tile the array: index (b, i, d) is in the block of point 4 b + 3, the last key tile
    of batch row b, and that point writes back. -/
theorem cover (j : S32x1024x64.Idx) :
    ∃ t : Fin cfg0.N, (cfg0.win 3).flush t = true ∧ j ∈ ((cfg0.win 3).blk t).view.set := by
  have hj0 : (j 0).val < 32 := (j 0).isLt
  have hj1 : (j 1).val < 1024 := (j 1).isLt
  have hj2 : (j 2).val < 64 := (j 2).isLt
  have hN : cfg0.N = 128 := N_0
  let t : Fin cfg0.N := ⟨4 * (j 0).val + 3, by omega⟩
  have ht : t.val = 4 * (j 0).val + 3 := rfl
  obtain ⟨e0, e1, e2⟩ := idx_facts t
  refine ⟨t, (flush0_3 t).mpr (by omega), ?_⟩
  rw [mem_blk]
  intro a
  match a with
  | ⟨0, _⟩ => show win0_3.index t (0 : Fin 3) * 1 ≤ (j 0).val ∧ (j 0).val < win0_3.index t (0 : Fin 3) * 1 + 1; omega
  | ⟨1, _⟩ => show win0_3.index t (1 : Fin 3) * 1024 ≤ (j 1).val ∧ (j 1).val < win0_3.index t (1 : Fin 3) * 1024 + 1024; omega
  | ⟨2, _⟩ => show win0_3.index t (2 : Fin 3) * 64 ≤ (j 2).val ∧ (j 2).val < win0_3.index t (2 : Fin 3) * 64 + 64; omega

/-- If at every last-tile point the output block's staging contents are the matching batch row of G, the output array ends at G. -/
theorem arr_of_blocks (c : Dev nD) (G : S32x1024x64.Idx → Elt F .f32)
    (hG : ∀ (t : Fin cfg0.N), t.val % 4 = 3 → ∀ (i : Fin 1024) (d : Fin 64),
      ((outsAt0 m c t.val t.isLt).1 : Vec F S1x1024x64 .f32) (ix3 (0 : Fin 1) i d) = G (ix3 (⟨t.val / 4, batch_lt t⟩ : Fin 32) i d)) :
    (dats m 0 c).arrAt 3 cfg0.N = G :=
  (dats m 0 c).arrAt_eq_of_cover 3 G (fun t hf => flushed_eq m c G hG t hf) cover

end Cert.KernelIdeal.OutputArray

end
-- ==== Proof.RefValue.lean ====
import proofs.«407558_j37718402793788_3_alg».proof.Proof.Gen.ReferenceIdeal.Read
import Idealize.ShloMosaic.Lib.ValueIdx
import Idealize.ShloMosaic.Lib.Pipeline.Value
import Idealize.ShloMosaic.PureOps.Ideal.Laws

/-! The reference program read at an index, at the ideal values: softmax over the keys of the scores
    (the sum over d of Q[b,i,d] * K[b,k,d]), shifted by the row's maximum, contracted with V. Each stage of the
    program is read at (b, i, k) or (b, i) in turn: the scores, the row maximum (a fold of max from -∞), the shifted
    exponentials, their sum from 0, the quotient, and the final contraction over the keys. -/

noncomputable section

namespace Cert.ReferenceIdeal.RefValue

open Cert.ReferenceIdeal Cert.ReferenceIdeal.Gen Cert.ReferenceIdeal.Read Idealize.ShloMosaic Idealize.ShloMosaic.ValueIdx

variable (Q : (⟨S32x1024x64, .f32⟩ : BufTy).Contents (Elt Ideal)) (K V : (⟨S32x8192x64, .f32⟩ : BufTy).Contents (Elt Ideal))

/-- the score of query row (b, i) against key k -/
def score (b : Fin 32) (i : Fin 1024) (k : Fin 8192) : EReal := ∑ d : Fin 64, Q (ix3 b i d) * K (ix3 b k d)

/-- the row's maximum as the reference takes it -/
def rowMax (b : Fin 32) (i : Fin 1024) : EReal := max (⊥ : EReal) ((Finset.univ : Finset (Fin 8192)).fold max (⊥ : EReal) (score Q K b i))

/-- The f32 pattern of -∞ is the bottom of the extended reals. -/
theorem negInf_eq_bot : Ideal.ofBits .f32 0xFF800000#32 = (⊥ : EReal) := by simp [Ideal.ofBits, Ideal.ieee]

/-- The first contraction at (b, i, k) is the score. -/
theorem scores_at (b : Fin 32) (i : Fin 1024) (k : Fin 8192) :
    val_main_v0 (F := Ideal) Q K (ix3 b i k) = score Q K b i k := by
  rw [val_main_v0_apply]
  unfold score
  refine Finset.sum_congr rfl fun d _ => ?_
  have el : lidx_main_v0 (ix3 b i k) d = ix3 b i d :=
    funext fun a => Fin.ext (by match a with | ⟨0, _⟩ => rfl | ⟨1, _⟩ => rfl | ⟨2, _⟩ => rfl)
  have er : ridx_main_v0 (ix3 b i k) d = ix3 b k d :=
    funext fun a => Fin.ext (by match a with | ⟨0, _⟩ => rfl | ⟨1, _⟩ => rfl | ⟨2, _⟩ => rfl)
  rw [el, er]

/-- The reduction by max over the keys at (b, i): the fold of max from -∞ over the row's scores. -/
theorem reduceMax_at (b : Fin 32) (i : Fin 1024) :
    val_main_v1 (F := Ideal) Q K (ix2 b i) = (Finset.univ : Finset (Fin 8192)).fold max (⊥ : EReal) (score Q K b i) := by
  have h : S32x1024x8192.Reduces [2] S32x1024 := by decide
  unfold val_main_v1
  rw [Host.reduce_eq_fold_single FloatOps.maximumf _ _ reducesTo_S32x1024x8192_S32x1024_d2 h h_S_]
  have hx : (val_main_v0 (F := Ideal) Q K ∘ h.lift (ix2 b i)) = score Q K b i := funext fun (k : Fin 8192) => by
    have e : h.lift (ix2 b i) k = ix3 b i k :=
      funext fun a => Fin.ext (by match a with | ⟨0, _⟩ => rfl | ⟨1, _⟩ => rfl | ⟨2, _⟩ => rfl)
    show val_main_v0 (F := Ideal) Q K (h.lift (ix2 b i) k) = score Q K b i k
    rw [e, scores_at]
  rw [hx]
  have hi : val_main_cst (F := Ideal) (Shape.Idx.first h_S_) = (⊥ : EReal) := negInf_eq_bot
  rw [hi]
  rfl

/-- The maximum with -∞ at (b, i) is the row's maximum. -/
theorem rowMax_at (b : Fin 32) (i : Fin 1024) :
    val_main_v3 (F := Ideal) Q K (ix2 b i) = rowMax Q K b i := by
  rw [val_main_v3_apply, val_main_v2_apply, val_main_cst_0_apply, reduceMax_at]
  unfold rowMax
  rw [Ideal.maximumf_def, Ideal.ofBits_def, negInf_eq_bot]

/-- The row's maximum broadcast along the keys. -/
theorem rowMaxBcast_at (b : Fin 32) (i : Fin 1024) (k : Fin 8192) :
    val_main_v5 (F := Ideal) Q K (ix3 b i k) = rowMax Q K b i := by
  rw [val_main_v5_apply, val_main_v4_apply]
  have e : idx_main_v4 (idx_main_v5 (ix3 b i k)) = ix2 b i :=
    funext fun a => Fin.ext (by match a with | ⟨0, _⟩ => rfl | ⟨1, _⟩ => rfl)
  rw [e, rowMax_at]

/-- The shifted exponential at (b, i, k). -/
theorem expShift_at (b : Fin 32) (i : Fin 1024) (k : Fin 8192) :
    val_main_v7 (F := Ideal) Q K (ix3 b i k) = Ideal.exp (score Q K b i k - rowMax Q K b i) := by
  rw [val_main_v7_apply, val_main_v6_apply, scores_at, rowMaxBcast_at, Ideal.hostUnary_exp_def, Ideal.subf_def]

/-- The sum from 0 of the shifted exponentials over the keys at (b, i). -/
theorem denom_at (b : Fin 32) (i : Fin 1024) :
    val_main_v8 (F := Ideal) Q K (ix2 b i) = 0 + ∑ k' : Fin 8192, Ideal.exp (score Q K b i k' - rowMax Q K b i) := by
  rw [val_main_v8_apply, val_main_cst_1_apply, Ideal.ofBits_def, Ideal.ofBits_zero_f32]
  refine congrArg (0 + ·) (Finset.sum_congr rfl fun k _ => ?_)
  have e : idx_main_v8 (ix2 b i) k = ix3 b i k :=
    funext fun a => Fin.ext (by match a with | ⟨0, _⟩ => rfl | ⟨1, _⟩ => rfl | ⟨2, _⟩ => rfl)
  rw [e, expShift_at]

/-- The denominator broadcast along the keys. -/
theorem denomBcast_at (b : Fin 32) (i : Fin 1024) (k : Fin 8192) :
    val_main_v10 (F := Ideal) Q K (ix3 b i k) = 0 + ∑ k' : Fin 8192, Ideal.exp (score Q K b i k' - rowMax Q K b i) := by
  rw [val_main_v10_apply, val_main_v9_apply]
  have e : idx_main_v9 (idx_main_v10 (ix3 b i k)) = ix2 b i :=
    funext fun a => Fin.ext (by match a with | ⟨0, _⟩ => rfl | ⟨1, _⟩ => rfl)
  rw [e, denom_at]

/-- The softmax weight at (b, i, k). -/
theorem weight_at (b : Fin 32) (i : Fin 1024) (k : Fin 8192) :
    val_main_v11 (F := Ideal) Q K (ix3 b i k)
      = Ideal.div (Ideal.exp (score Q K b i k - rowMax Q K b i)) (0 + ∑ k' : Fin 8192, Ideal.exp (score Q K b i k' - rowMax Q K b i)) := by
  rw [val_main_v11_apply, expShift_at, denomBcast_at, Ideal.hostDivf_def]

theorem ref_apply (b : Fin 32) (i : Fin 1024) (d : Fin 64) :
    val_main_v12 (F := Ideal) Q K V (ix3 b i d)
      = ∑ k : Fin 8192, Ideal.div (Ideal.exp (score Q K b i k - rowMax Q K b i)) (0 + ∑ k' : Fin 8192, Ideal.exp (score Q K b i k' - rowMax Q K b i)) * V (ix3 b k d) := by
  rw [val_main_v12_apply]
  refine Finset.sum_congr rfl fun k _ => ?_
  have el : lidx_main_v12 (ix3 b i d) k = ix3 b i k :=
    funext fun a => Fin.ext (by match a with | ⟨0, _⟩ => rfl | ⟨1, _⟩ => rfl | ⟨2, _⟩ => rfl)
  have er : ridx_main_v12 (ix3 b i d) k = ix3 b k d :=
    funext fun a => Fin.ext (by match a with | ⟨0, _⟩ => rfl | ⟨1, _⟩ => rfl | ⟨2, _⟩ => rfl)
  rw [el, er, weight_at]

end Cert.ReferenceIdeal.RefValue

end
-- ==== Proof.Finite.lean ====
/-
  From the precondition "every float input is finite" to "every entry of the three argument arrays is a real number".
  The precondition is the conjunction of three stages all(|x| < +∞), one per array, each a reduction by `and` over all
  axes of the elementwise comparison of max x (-x) with the f32 pattern 0x7F800000. At the exact instance that pattern
  is ⊤, an `and` that is 1 has both operands 1, a full reduction by `and` that is 1 has every element 1, and an extended
  real x with max x (-x) < ⊤ is neither ⊥ nor ⊤, hence a real.
-/
import proofs.«407558_j37718402793788_3_alg».proof.Defs
import Idealize.ShloMosaic.Lib.ReduceAll
import Idealize.ShloMosaic.Lib.ValueIdx

noncomputable section

namespace Cert.KernelIdeal.Finite

open Idealize.ShloMosaic Idealize.SL.Sem

/-- The f32 pattern with all-ones exponent and zero fraction denotes +∞. -/
theorem inf_bits : Ideal.ofBits .f32 0x7F800000#32 = (⊤ : EReal) := by
  simp [Ideal.ofBits, Ideal.ieee]

/-- An extended real whose absolute value max x (-x) is strictly below +∞ is a real number. -/
theorem real_of_abs_lt (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

/-- The rank-0 shape has exactly one index. -/
instance : Subsingleton Cert.Pre_finite_inputs.S_.Idx := ⟨fun a b => funext fun d => d.elim0⟩

/-- One stage all(|x| < +∞) that is 1, read back at every index of the array: each entry is a real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu ValueIdx.ix0 = 1#1) (j : s.Idx) :
    ∃ r : ℝ, x j = (r : EReal) :=
  real_of_abs_lt (x j) (Host.reduce_andi_all _ _ hr hu _ e j)

/-- Under the precondition, on every device, every entry of each of the three argument arrays is a real number. -/
theorem real_of_pre [Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
      (∀ j, ∃ r : ℝ, m ((c.tc : Thread Cert.KernelIdeal.nD Cert.KernelIdeal.τ).loc Cert.KernelIdeal.main_arg0) j = (r : EReal))
      ∧ (∀ j, ∃ r : ℝ, m ((c.tc : Thread Cert.KernelIdeal.nD Cert.KernelIdeal.τ).loc Cert.KernelIdeal.main_arg1) j = (r : EReal))
      ∧ (∀ j, ∃ r : ℝ, m ((c.tc : Thread Cert.KernelIdeal.nD Cert.KernelIdeal.τ).loc Cert.KernelIdeal.main_arg2) j = (r : EReal)) := by
  have h0 := congrFun (h c) ValueIdx.ix0
  dsimp only [Cert.Pre_finite_inputs.fn] at h0
  obtain ⟨h01, h2⟩ := IntOp.andi_eq_one.1 h0
  obtain ⟨h0', h1⟩ := IntOp.andi_eq_one.1 h01
  exact ⟨real_of_all (s := Cert.Pre_finite_inputs.S32x1024x64) _ _ _ _ h0',
    real_of_all (s := Cert.Pre_finite_inputs.S32x8192x64) _ _ _ _ h1,
    real_of_all (s := Cert.Pre_finite_inputs.S32x8192x64) _ _ _ _ h2⟩

end Cert.KernelIdeal.Finite

end
-- ==== Proof.Result.lean ====
import proofs.«407558_j37718402793788_3_alg».proof.Proof.Invariant
import proofs.«407558_j37718402793788_3_alg».proof.Proof.OutputArray
import proofs.«407558_j37718402793788_3_alg».proof.Proof.RefValue
import proofs.«407558_j37718402793788_3_alg».proof.Proof.Finite
import proofs.«407558_j37718402793788_3_alg».proof.Proof.Gen.Pre_finite_inputs
import proofs.«407558_j37718402793788_3_alg».proof.Proof.Gen.KernelIdeal.Value
import proofs.«407558_j37718402793788_3_alg».proof.Proof.Gen.ReferenceIdeal.Read

set_option maxRecDepth 16384

noncomputable section

/-! The kernel's result array. At the last key tile of batch row `b` every query row's state tracks all 8192 keys, so the
    block written there — accumulator over running sum — is, entry by entry, the plain softmax-weighted sum of the
    values (Cert.OnlineSoftmax.Tracks.out_eq_softmax), which is what the reference's last stage reads at that entry
    (Cert.ReferenceIdeal.RefValue.ref_apply). The 32 blocks written back tile the array. -/

namespace Cert.KernelIdeal.Result

open Cert.KernelIdeal Cert.KernelIdeal.Gen Cert.KernelIdeal.PointState Cert.KernelIdeal.Online Cert.OnlineSoftmax
open Idealize.ShloMosaic Idealize.ShloMosaic.ValueIdx Idealize.ShloMosaic.TcCoe Idealize.SL.Sem

variable (m : (ℓ : Loc nD τ sig) → Buf (Elt Ideal) ℓ) (ρ : Dev nD → PrngReg)

/-- The reference's last stage, of the kernel's own argument arrays: the function both programs end at. -/
abbrev G (c : Dev nD) : S32x1024x64.Idx → EReal :=
  Cert.ReferenceIdeal.Read.val_main_v12 (F := Ideal) (Qa m c) (Ka m c) (Va m c)

/-- The reference's score of a row against a key is the real score. -/
theorem score_real (c : Dev nD) (qr : S32x1024x64.Idx → ℝ) (kr : S32x8192x64.Idx → ℝ)
    (hq : ∀ j, Qa m c j = ((qr j : ℝ) : EReal)) (hk : ∀ j, Ka m c j = ((kr j : ℝ) : EReal))
    (b : Fin 32) (i : Fin 1024) (k : Fin 8192) :
    Cert.ReferenceIdeal.RefValue.score (Qa m c) (Ka m c) b i k = ((sc qr kr b i k.val : ℝ) : EReal) := by
  rw [sc, dif_pos k.isLt, coe_sum]
  unfold Cert.ReferenceIdeal.RefValue.score
  refine Finset.sum_congr rfl fun d _ => ?_
  rw [hq, hk, EReal.coe_mul]

/-- What a last tile writes is the reference's last stage at the batch row's entries. -/
theorem block_eq (hpre : Cert.Pre_KernelIdeal m) (c : Dev nD) (n : ℕ) (h : n < cfg0.N) (h3 : n % 4 = 3)
    (i : Fin 1024) (d : Fin 64) :
    oS m c n h (ix3 (0 : Fin 1) i d) = G m c (ix3 (row n h) i d) := by
  obtain ⟨hQ, hK, hV⟩ := Cert.KernelIdeal.Finite.real_of_pre m hpre c
  choose qr hq using hQ
  choose kr hk using hK
  choose vr hv using hV
  have hI := (inv m c qr kr vr hq hk hv n h).2 i
  have hn : 2048 * (n % 4 + 1) = 8192 := by omega
  rw [hn] at hI
  rw [out_last m c n h h3 i d]
  show _ = Cert.ReferenceIdeal.Read.val_main_v12 (F := Ideal) (Qa m c) (Ka m c) (Va m c) (ix3 (row n h) i d)
  rw [Cert.ReferenceIdeal.RefValue.ref_apply (Qa m c) (Ka m c) (Va m c) (row n h) i d]
  exact hI.out_eq_softmax (by decide) d (Cert.ReferenceIdeal.RefValue.score (Qa m c) (Ka m c) (row n h) i)
    (fun k => score_real m c qr kr hq hk (row n h) i k)
    (fun k => Va m c (ix3 (row n h) k d))
    (fun k => by rw [vv, dif_pos k.isLt]; exact hv _)

/-- The output array after the run. -/
theorem final (hpre : Cert.Pre_KernelIdeal m) (c : Dev nD) : (dats m 0 c).arrAt 3 cfg0.N = G m c :=
  Cert.KernelIdeal.OutputArray.arr_of_blocks m c (G m c) fun t h3 i d => block_eq m hpre c t.val t.isLt h3 i d

/-- The kernel's run, read: the result array ends at `G`, the arguments unchanged. -/
theorem run (hpre : Cert.Pre_KernelIdeal m) :
    θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m hpre c), (h c).2⟩) (Cert.KernelIdeal.Value.run_blocks m ρ)

end Cert.KernelIdeal.Result

end
-- ==== Proof.lean ====
/-
  Flash attention with an online softmax — per batch row the 8192 keys are walked in four tiles of 2048, carrying for
  every query row a running maximum m, a running sum l and an accumulator acc:
      m' = max m (max of the tile's scores),   a = exp (m - m'),
      l' = a · l + ∑ exp (s - m'),             acc' = a · acc + ∑ exp (s - m') · v,
  from (m, l, acc) = (-∞, 0, 0), and writing acc / l after the last tile — against the plain softmax (Q Kᵀ) V, which
  subtracts each row's maximum, exponentiates, divides by the row's sum and multiplies with V.

  Over the extended reals with every input a real number (the precondition) the two agree. Rescaling by
  exp (m - m') turns sums of exp (s - m) into sums of exp (s - m'), so after each tile (l, acc) are the softmax
  denominator and numerator over the keys seen so far, shifted by a REAL number m (Proof/OnlineSoftmax.lean, Tracks;
  the first tile's exp (-∞ - m') = 0 wipes the zero start). The quotient numerator / denominator does not depend
  on the shift, and is the reference's sum of values weighted by exp (s - M) / ∑ exp (s - M) with its own
  maximum M (Tracks.out_eq_softmax): which maximum each side subtracts never matters, only that it is real.
  The narrowing of matrix-unit inputs is the identity on the extended reals, and the two matrix products and the
  row reductions are plain finite sums and maxima there.

  Modules: OnlineSoftmax (the mathematics of one row), Pieces and PointState (what each grid point leaves in the
  carried buffers, as the body's pure terms), PayloadAt (those terms at an entry), BlockRead (the staged blocks as
  entries of the argument arrays), Invariant (the induction along the grid walk), OutputArray (the 32 written blocks
  tile the result), RefValue (the reference at an entry), Finite (the precondition gives reals), Result (the two
  ends meet).
-/
import proofs.«407558_j37718402793788_3_alg».proof.Defs
import proofs.«407558_j37718402793788_3_alg».proof.Proof.Gen.Kernel
import proofs.«407558_j37718402793788_3_alg».proof.Proof.Gen.Kernel.Skeleton
import proofs.«407558_j37718402793788_3_alg».proof.Proof.Gen.Kernel.Launch
import proofs.«407558_j37718402793788_3_alg».proof.Proof.Gen.Kernel.Points
import proofs.«407558_j37718402793788_3_alg».proof.Proof.Gen.Kernel.Frame
import proofs.«407558_j37718402793788_3_alg».proof.Proof.Gen.KernelIdeal
import proofs.«407558_j37718402793788_3_alg».proof.Proof.Gen.KernelIdeal.Skeleton
import proofs.«407558_j37718402793788_3_alg».proof.Proof.Gen.KernelIdeal.Launch
import proofs.«407558_j37718402793788_3_alg».proof.Proof.Gen.KernelIdeal.Points
import proofs.«407558_j37718402793788_3_alg».proof.Proof.Gen.KernelIdeal.Frame
import proofs.«407558_j37718402793788_3_alg».proof.Proof.Gen.ReferenceIdeal
import proofs.«407558_j37718402793788_3_alg».proof.Proof.Gen.Pre_finite_inputs
import proofs.«407558_j37718402793788_3_alg».proof.Proof.Gen.KernelIdeal.Value
import proofs.«407558_j37718402793788_3_alg».proof.Proof.Gen.ReferenceIdeal.Run
import proofs.«407558_j37718402793788_3_alg».proof.Proof.Gen.ReferenceIdeal.Read
import proofs.«407558_j37718402793788_3_alg».proof.Proof.Result
import Idealize.ShloMosaic.Adequacy
import Idealize.ShloMosaic.Init

noncomputable section

namespace Cert.Proof

open Idealize.ShloMosaic Idealize.SL.Sem

/-- The word-level kernel runs and leaves its arguments alone: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the reference's last stage of the (agreeing) argument arrays: the kernel by the online-softmax
    invariant and shift invariance, the reference by its run read back. -/
theorem algebraic : Cert.algebraic_KernelIdeal_ReferenceIdeal := by
  intro m ρ m' ρ' hpre hagree
  refine ⟨fun c => Cert.KernelIdeal.Result.G m c, Cert.KernelIdeal.Result.run m ρ hpre, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
